-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S256x512 .f32) (main_arg12 : FVec F S256 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S256x512 .f32) (main_arg6 : FVec F S256 .f32) (main_arg7 : FVec F S512x512 .f32) (main_arg8 : FVec F S512 .f32) (main_arg9 : FVec F S512x512 .f32) (main_arg10 : FVec F S512 .f32) (main_arg11 : FVec F S256x512 .f32) (main_arg12 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x256 .f32) (main_arg1 : FVec F S32768x2048 .f32) (main_arg2 : FVec F S32768x2048 .f32) (main_arg3 : FVec F S512x512 .f32) (main_arg4 : FVec F S512 .f32) (main_arg5 : FVec F S256x512 .f32) (main_arg6 : FVec F S256 .f32) (main_arg7 : FVec F S512x512 .f32) (main_arg8 : FVec F S512 .f32) (main_arg9 : FVec F S512x512 .f32) (main_arg10 : FVec F S512 .f32) (main_arg11 : FVec F S256x512 .f32) (main_arg12 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S32768x2048 .f32 := Host.absf main_arg2
  let main_cst_2 : FVec F S_ .f32 := constant S_ .f32 0x7F800000#32
  let main_v10 : FVec F S32768x2048 .f32 := broadcastInDim S32768x2048 ![] bcast_S_S32768x2048 main_cst_2
  let main_v11 : IVec S32768x2048 1 := cmpf .olt main_v9 main_v10
  let main_c_3 : IVec S_ 1 := constantI S_ 1 1#1
  let main_v12 : IVec S_ 1 := (fun x v => Host.reduce IntOp.andi x v reducesTo_S32768x2048_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S2x2048x256 : Shape := ⟨3, ![2, 2048, 256]⟩
abbrev S1024x2048 : Shape := ⟨2, ![1024, 2048]⟩
abbrev S1x2048x256 : Shape := ⟨3, ![1, 2048, 256]⟩
abbrev S1024x256 : Shape := ⟨2, ![1024, 256]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S2048x512 : Shape := ⟨2, ![2048, 512]⟩

abbrev nBuf : Space → Nat
  | .hbm => 15
  | .vmem => 21
  | .smem => 0
  | _ => 0

abbrev bufTy : (tb : Table) → Fin (tcTables nBuf tb) → BufTy
  | .hbm, ⟨0, _⟩ => ⟨S2048x256, .f32⟩
  | .hbm, ⟨1, _⟩ => ⟨S32768x2048, .f32⟩
  | .hbm, ⟨2, _⟩ => ⟨S32768x2048, .f32⟩
  | .hbm, ⟨3, _⟩ => ⟨S512x512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S2x2048x256, .f32⟩
  | .hbm, ⟨14, _⟩ => ⟨S2048x256, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x256, .f32⟩
  | .local _ .vmem, ⟨5, _⟩ => ⟨S512x512, .f32⟩
  | .local _ .vmem, ⟨6, _⟩ => ⟨S512, .f32⟩
  | .local _ .vmem, ⟨7, _⟩ => ⟨S256x512, .f32⟩
  | .local _ .vmem, ⟨8, _⟩ => ⟨S256, .f32⟩
  | .local _ .vmem, ⟨9, _⟩ => ⟨S1x2048x256, .f32⟩
  | .local _ .vmem, ⟨10, _⟩ => ⟨S1x2048x256, .f32⟩
  | .local _ .vmem, ⟨11, _⟩ => ⟨S2048x256, .f32⟩
  | .local _ .vmem, ⟨12, _⟩ => ⟨S2x2048x256, .f32⟩
  | .local _ .vmem, ⟨13, _⟩ => ⟨S2048x256, .f32⟩
  | .local _ .vmem, ⟨14, _⟩ => ⟨S512x512, .f32⟩
  | .local _ .vmem, ⟨15, _⟩ => ⟨S512, .f32⟩
  | .local _ .vmem, ⟨16, _⟩ => ⟨S512x512, .f32⟩
  | .local _ .vmem, ⟨17, _⟩ => ⟨S512, .f32⟩
  | .local _ .vmem, ⟨18, _⟩ => ⟨S256x512, .f32⟩
  | .local _ .vmem, ⟨19, _⟩ => ⟨S256, .f32⟩
  | .local _ .vmem, ⟨20, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  concatenates_S1024x256_S1024x256_S1024x512_d1 : Shape.Concatenates [S1024x256, S1024x256] S1024x512 1
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S2x2048x256_S1x2048x256_0_0_0 : ∀ a, (![0, 0, 0] : Fin 3 → Nat) a + S1x2048x256.size a ≤ S2x2048x256.size a
  inb_S2x2048x256_S1x2048x256_1_0_0 : ∀ a, (![1, 0, 0] : Fin 3 → Nat) a + S1x2048x256.size a ≤ S2x2048x256.size a
  concatenates_S2048x256_S2048x256_S2048x512_d1 : Shape.Concatenates [S2048x256, S2048x256] S2048x512 1
  broadcasts_S1x512_S2048x512 : S1x512.Broadcasts S2048x512
  broadcasts_S1x256_S2048x256 : S1x256.Broadcasts S2048x256
  dot_S1024x2048_S2048x256_S1024x256_1_0_0_1_n_n_wf : DotDims.WF S1024x2048 S2048x256 S1024x256 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x2048_S1024x256_S2048x256_0_0_1_1_n_n_wf : DotDims.WF S1024x2048 S1024x256 S2048x256 [0] [0] [1] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .f32 = 32 ∨ (Rect.block (s := S32768x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S2x2048x256.size a
  hwx0_7 : ∀ i : grid0.Coords, EltTy.bits .f32 = 32 ∨ (Rect.block (s := S2x2048x256) S1x2048x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x2048x256.size a ≤ S2x2048x256.size a
  hwx1_0 : ∀ i : grid1.Coords, EltTy.bits .f32 = 32 ∨ (Rect.block (s := S2x2048x256) S2x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S256x512.size a
  hwx1_6 : ∀ i : grid1.Coords, EltTy.bits .f32 = 32 ∨ (Rect.block (s := S256x512) S256x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x256.size a ≤ S2048x256.size a
  hwx1_8 : ∀ i : grid1.Coords, EltTy.bits .f32 = 32 ∨ (Rect.block (s := S2048x256) S2048x256.size (cc1_transform_8 i) (hinb1_8 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0) S2x2048x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S256x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S2048x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S32768x256 : Shape := ⟨2, ![32768, 256]⟩
abbrev S32768x512 : Shape := ⟨2, ![32768, 512]⟩
abbrev S1x512 : Shape := ⟨2, ![1, 512]⟩
abbrev S_ : Shape := ⟨0, ![]⟩
abbrev S512x256 : Shape := ⟨2, ![512, 256]⟩
abbrev S1x256 : Shape := ⟨2, ![1, 256]⟩
abbrev S2048x32768 : Shape := ⟨2, ![2048, 32768]⟩
abbrev S2048x512 : Shape := ⟨2, ![2048, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S32768x2048, .f32⟩
  | .hbm, ⟨2, _⟩ => ⟨S32768x2048, .f32⟩
  | .hbm, ⟨3, _⟩ => ⟨S512x512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S32768x256, .f32⟩
  | .hbm, ⟨14, _⟩ => ⟨S32768x256, .f32⟩
  | .hbm, ⟨15, _⟩ => ⟨S32768x512, .f32⟩
  | .hbm, ⟨16, _⟩ => ⟨S512x512, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S512x256, .f32⟩
  | .hbm, ⟨25, _⟩ => ⟨S32768x256, .f32⟩
  | .hbm, ⟨26, _⟩ => ⟨S1x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S2048x32768, .f32⟩
  | .hbm, ⟨33, _⟩ => ⟨S2048x256, .f32⟩
  | .hbm, ⟨34, _⟩ => ⟨S2048x512, .f32⟩
  | .hbm, ⟨35, _⟩ => ⟨S512x512, .f32⟩
  | .hbm, ⟨36, _⟩ => ⟨S2048x512, .f32⟩
  | .hbm, ⟨37, _⟩ => ⟨S1x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S512x512, .f32⟩
  | .hbm, ⟨44, _⟩ => ⟨S2048x512, .f32⟩
  | .hbm, ⟨45, _⟩ => ⟨S1x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048x512, .f32⟩
  | .hbm, ⟨50, _⟩ => ⟨S2048x512, .f32⟩
  | .hbm, ⟨51, _⟩ => ⟨S512x256, .f32⟩
  | .hbm, ⟨52, _⟩ => ⟨S2048x256, .f32⟩
  | .hbm, ⟨53, _⟩ => ⟨S1x256, .f32⟩
  | .hbm, ⟨54, _⟩ => ⟨S2048x256, .f32⟩
  | .hbm, ⟨55, _⟩ => ⟨S2048x256, .f32⟩
  | .hbm, ⟨56, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  concatenates_S32768x256_S32768x256_S32768x512_d1 : Shape.Concatenates [S32768x256, S32768x256] S32768x512 1
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S32768x2048_S2048x32768_1_0 : S32768x2048.Transposes [1, 0] S2048x32768
  concatenates_S2048x256_S2048x256_S2048x512_d1 : Shape.Concatenates [S2048x256, S2048x256] S2048x512 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1x256_S2048x256_0_1 : S1x256.BroadcastsInDim S2048x256 (![0, 1] : Fin 2 → Fin S2048x256.rank)
  dot_S32768x2048_S2048x256_S32768x256_1_0_0_1_n_n_wf : DotDims.WF S32768x2048 S2048x256 S32768x256 [1] [0] [0] [1] [] []
  dot_S32768x512_S512x512_S32768x512_1_0_0_1_n_n_wf : DotDims.WF S32768x512 S512x512 S32768x512 [1] [0] [0] [1] [] []
  dot_S32768x512_S512x256_S32768x256_1_0_0_1_n_n_wf : DotDims.WF S32768x512 S512x256 S32768x256 [1] [0] [0] [1] [] []
  dot_S2048x32768_S32768x256_S2048x256_1_0_0_1_n_n_wf : DotDims.WF S2048x32768 S32768x256 S2048x256 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []

variable [Facts₀]

def dot_S32768x2048_S2048x256_S32768x256_1_0_0_1_n_n : DotDims S32768x2048 S2048x256 S32768x256 where
  lhsContracting := [1]
  rhsContracting := [0]
  lhsNonContracting := [0]
  rhsNonContracting := [1]
  lhsBatch := []
  rhsBatch := []
  wf := dot_S32768x2048_S2048x256_S32768x256_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S2048x32768_S32768x256_S2048x256_1_0_0_1_n_n : DotDims S2048x32768 S32768x256 S2048x256 where
  lhsContracting := [1]
  rhsContracting := [0]
  lhsNonContracting := [0]
  rhsNonContracting := [1]
  lhsBatch := []
  rhsBatch := []
  wf := dot_S2048x32768_S32768x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.Bits.Data0.lean ====
/-
  The edge phase (the first kernel region) on a grid of 2 × 16 points: what its proof data are.
  Point t = 16·h + i handles the 1024 edges [1024·t, 1024·t + 1024). Its body computes, from the tile's rows of
  the two incidence matrices and the whole node features and message weights, the tile's contribution
  `tilePart` to the aggregate (for every node n and channel r the sum over the tile's edges e of
  rel_rec[e, n] · msg[e, r]), and adds it into a scratch accumulator that it has zeroed at i = 0; at i = 15
  it copies the accumulator into the half's output block. `accAt0 n` is the accumulator after point n,
  `outAt0 n` the output block the body leaves there (meaningful at i = 15 only, elsewhere the window is idle).
-/
import proofs.«157347_j10196252360963_1_alg».proof.Proof.Gen.Kernel.Launch
import proofs.«157347_j10196252360963_1_alg».proof.Proof.Gen.Kernel.Skeleton
import proofs.«157347_j10196252360963_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's contribution to the aggregate: the body's pure term of the seven input blocks at point `t`. -/
def tilePart (c : Dev nD) (t : Fin cfg0.N) : Vec F S2048x256 .f32 :=
  k0_pay4 (iblk0 V c 0 t) (iblk0 V c 1 t) (iblk0 V c 2 t) (iblk0 V c 3 t) (iblk0 V c 4 t) (iblk0 V c 5 t) (iblk0 V c 6 t)

/-- The accumulator after point `n`: restarted from zero at the first point of each half (n ≡ 0 mod 16),
    otherwise the previous point's plus this tile's contribution. -/
def accAt0 (c : Dev nD) : (n : ℕ) → n < cfg0.N → Vec F S2048x256 .f32
  | 0, hn => k0_pay1 (tilePart V c ⟨0, hn⟩) (k0_pay3 (F := F))
  | n + 1, hn =>
    if (n + 1) % 16 = 0 then k0_pay1 (tilePart V c ⟨n + 1, hn⟩) (k0_pay3 (F := F))
    else k0_pay1 (tilePart V c ⟨n + 1, hn⟩) (accAt0 c n (Nat.lt_of_succ_lt hn))

theorem accAt0_reset (c : Dev nD) (t : Fin cfg0.N) (h : t.val % 16 = 0) :
    accAt0 V c t.val t.isLt = k0_pay1 (tilePart V c t) (k0_pay3 (F := F)) := by
  obtain ⟨n, hn⟩ := t
  cases n with
  | zero => rfl
  | succ n => exact (if_pos h).trans rfl

theorem accAt0_step (c : Dev nD) (t : Fin cfg0.N) (h : ¬t.val % 16 = 0) :
    accAt0 V c t.val t.isLt = k0_pay1 (tilePart V c t) (accAt0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The output block the body leaves at point `n`: the accumulator, as a 1 × 2048 × 256 block. -/
def outAt0 (c : Dev nD) (n : ℕ) (hn : n < cfg0.N) : Vec F S1x2048x256 .f32 := k0_pay2 (accAt0 V c n hn)

/-- The scratch accumulator as a memref. -/
abbrev scM0 : Memref sig .tc .vmem S2048x256 .f32 := Memref.whole cc0_scratch0

/-- The region's invariant before point `n`: before the first point every scoped buffer outside the
    pipeline's at anything; afterwards the accumulator at what the point before left, the other such
    buffers at anything, and the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f))
      ∗ (∃ r, prngReg c r))

/-- The proof data of the edge phase on core `c`, entered at contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t.val t.isLt := by dsimp only [dat0]

end Cert.Kernel.Hand

end
-- ==== Proof.Bits.Edge.lean ====
/-
  The edge phase's body at every grid point.
  Point t = 16·h + i of the 2 × 16 grid finds the seven input blocks in their buffers, the accumulator at what
  point t − 1 left (at anything before the first point), and the output buffer at anything. Every load and
  store of the body goes through a whole buffer at zero offsets, so: if i = 0 the accumulator is first set to
  zero; the tile's contribution is added to it; if i = 15 it is then copied to the output block, which is
  otherwise left as found. These are the closed terms of the proof data (the accumulator after point t, the
  output block at a copying point), case by case: i = 0, 0 < i < 15, i = 15. Before the first point the
  invariant is what the launch hands over, and after the last it gives that back by forgetting what the
  accumulator holds.
-/
import proofs.«157347_j10196252360963_1_alg».proof.Proof.Bits.Data0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Edge

/-! ## Zero offsets, however spelt -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's two conditions, over the grid -/

/-- The accumulator is zeroed where the point's second coordinate is 0, -/
abbrev condR (i : grid0.Coords) : Prop := (Scalar.cmpi .ne (Scalar.extui (Scalar.cmpi .eq (BitVec.ofNat 32 (i 1).val) 0#32)) 0#32) = 1#1
/-- and copied to the output block where it is 15. -/
abbrev condS (i : grid0.Coords) : Prop := k0_cond2 i = 1#1

/-- Point t = 16·h + i has second coordinate i: it is 0 exactly when t ≡ 0 (mod 16), -/
theorem hcondR : ∀ t : Fin cfg0.N, condR (grid0.coords t) ↔ t.val % 16 = 0 :=
  (by decide +kernel : ∀ t : Fin grid0.N, condR (grid0.coords t) ↔ t.val % 16 = 0)
/-- and 15 exactly when t ≡ 15 (mod 16). -/
theorem hcondS : ∀ t : Fin cfg0.N, condS (grid0.coords t) ↔ t.val % 16 = 15 :=
  (by decide +kernel : ∀ t : Fin grid0.N, condS (grid0.coords t) ↔ t.val % 16 = 15)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
/-- The output window is idle, and not written back, at the points that do not copy the accumulator out; -/
theorem idle0_7 : ∀ t : Fin cfg0.N, ¬condS (grid0.coords t) → cfg0.idle 7 (grid0.coords t) = true := by decide +kernel
theorem noFlush0_7 : ∀ t : Fin cfg0.N, ¬condS (grid0.coords t) → (cfg0.win 7).flush t = false := by decide +kernel
/-- live at those that do. -/
theorem live0_7 : ∀ t : Fin cfg0.N, condS (grid0.coords t) → cfg0.idle 7 (grid0.coords t) = false := by decide +kernel

/-! ## The staging memrefs at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .f32 := win0_7.stage (cfg0.slots t 7)
abbrev hs0_7 (t : Fin cfg0.N) : (ms0_7 t).IsWhole := hstage0_7 ((cfg0.slots t 7).cast nbuf0_7)

/-! ## The invariant, point by point -/

/-- The scoped buffers beside the accumulator, each at anything. -/
def restS (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point n: the accumulator at that point's contents. -/
theorem PhiS0_succ (c : Dev nD) (n : ℕ) (hn : n < cfg0.N) :
    PhiS0 V c (n + 1) hn = iprop(iprop(owns (c : Thread nD τ) scM0 fullShare (accAt0 V c n hn) ∗ restS (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (accAt0 V c (n - 1) (by omega)) ∗ restS (F := F) c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body on any whole staging memrefs, case by case

Every load and store of the body is through the whole-buffer rectangle at zero offsets, so a load reads the
buffer's contents, a store leaves its payload, and a load after a store reads that payload. -/

set_option maxHeartbeats 4000000 in
/-- A point that neither zeroes nor copies out (second coordinate strictly between 0 and 15): the accumulator
    gains the tile's contribution; the output buffer is handed back untouched. -/
theorem run_mid (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : ¬condR i) (hcS : ¬condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (xo : Vec F S1x2048x256 .f32) (acc : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (k0_pay1 (k0_pay4 x0 x1 x2 x3 x4 x5 x6) acc)) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fa, %hfa, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf9; obtain rfl := harg10.eq_unread hfa
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr; · ipureintro; exact harg9.read_unread _
    iexact H9
  iexists _; isplitr
  swap; · iexact HA
  ipureintro
  sl_unfold_words
  rw [View.read_writes_eq_canon _ _ _ (fun y => ⟨_, List.mem_singleton_self _, View.mem_set_unit_zero hz2 inb_S2048x256_S2048x256_0_0 y⟩)]
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

set_option maxHeartbeats 4000000 in
/-- A point that zeroes (second coordinate 0) and does not copy out: the accumulator, whatever it held, ends at
    zero plus the tile's contribution; the output buffer is handed back untouched. -/
theorem run_reset (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : condR i) (hcS : ¬condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (xo : Vec F S1x2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (k0_pay1 (k0_pay4 x0 x1 x2 x3 x4 x5 x6) (k0_pay3 (F := F)))) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%da, %fa, -, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf9
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr; · ipureintro; exact harg9.read_unread _
    iexact H9
  iexists _; isplitr
  swap; · iexact HA
  ipureintro
  sl_unfold_words
  rw [View.read_writes_eq_canon _ _ _ (fun y => ⟨_, List.mem_cons.mpr (Or.inl rfl), View.mem_set_unit_zero hz2 inb_S2048x256_S2048x256_0_0 y⟩)]
  rw [View.canon_cons_unit_zero (S := S2048x256) hz2]
  simp only [View.readCov_unit_zero (S := S2048x256) _ hz2, View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

set_option maxHeartbeats 4000000 in
/-- A point that copies out (second coordinate 15) and does not zero: the accumulator gains the tile's
    contribution, and the output buffer, whatever it held, ends at the accumulator as a 1 × 2048 × 256 block. -/
theorem run_store (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : ¬condR i) (hcS : condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (acc : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (k0_pay1 (k0_pay4 x0 x1 x2 x3 x4 x5 x6) acc)) ∗ owns (c : Thread nD τ) arg10 fullShare (k0_pay1 (k0_pay4 x0 x1 x2 x3 x4 x5 x6) acc)) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fa, %hfa, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfa
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    sl_unfold_words
    rw [View.read_writes_eq_canon _ _ _ (fun y => ⟨_, List.mem_singleton_self _, View.mem_set_unit_zero hz3 inb_S1x2048x256_S1x2048x256_0_0_0 y⟩)]
    rw [View.canon_unit_zero hz3]
    simp only [View.readCov_unit_zero (S := S2048x256) _ hz2, View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]
  iexists _; isplitr
  swap; · iexact HA
  ipureintro
  sl_unfold_words
  rw [View.read_writes_eq_canon _ _ _ (fun y => ⟨_, List.mem_singleton_self _, View.mem_set_unit_zero hz2 inb_S2048x256_S2048x256_0_0 y⟩)]
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

/-! ## The body obligation at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks. Point t = 16·h + i zeroes the accumulator
    iff i = 0 (t ≡ 0 mod 16) and copies it out iff i = 15 (t ≡ 15 mod 16); in each of the three cases that
    occur the accumulator ends at the closed term for the point (zero or the previous point's, plus the tile's
    contribution), and the output buffer at the accumulator's block or, where idle, as it was found. The invariant
    hands the accumulator at anything before the first point and at the previous point's term afterwards. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  have hN : t.val < 32 := lt_of_lt_of_eq t.isLt (show cfg0.N = 32 from N_0)
  by_cases h0 : t.val % 16 = 0
  · by_cases h15 : t.val % 16 = 15
    · exfalso; omega
    · have hR : condR (grid0.coords t) := (hcondR t).mpr h0
      have hS : ¬condS (grid0.coords t) := fun h => h15 ((hcondS t).mp h)
      rw [Dat.leavesExact_idle (dat0 V c) 7 t (idle0_7 t hS) (noFlush0_7 t hS)]
      rw [accAt0_reset V c t h0]; unfold tilePart
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_reset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_reset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    have hR : ¬condR (grid0.coords t) := fun h => h0 ((hcondR t).mp h)
    rw [accAt0_step V c t h0]
    by_cases h15 : t.val % 16 = 15
    · have hS : condS (grid0.coords t) := (hcondS t).mpr h15
      rw [show (dat0 V c).leavesExact 7 t = owns (c : Thread nD τ) (ms0_7 t) fullShare ((dat0 V c).after 7 t) from by
        unfold Dat.leavesExact; rw [live0_7 t hS], after0_7]
      unfold outAt0
      rw [accAt0_step V c t h0]; unfold tilePart
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_store c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hS : ¬condS (grid0.coords t) := fun h => h15 ((hcondS t).mp h)
      rw [Dat.leavesExact_idle (dat0 V c) 7 t (idle0_7 t hS) (noFlush0_7 t hS)]
      unfold tilePart
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- After any point but the first the invariant gives the launch's back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

end Edge

/-! ## The three facts the region's run takes -/

/-- The library's body obligation, at every point. -/
theorem body_obligation0 (c : Dev nD) : BodyObligation (dat0 (F := F) V c) (defs₀ (F := F)) Variants.none () Set.univ := fun t => by
  rw [bigSep_W0, bigSep_W0]
  exact Edge.sound_body V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, Edge.PhiS0_zero V c 0 _ rfl]

/-- After the last point the invariant gives back what the launch handed over. -/
theorem hout0 (c : Dev nD) : (dat0 V c).Φ (Fin.last cfg0.N) ⊢ (Pipeline.ΦA spec0 c : sProp 𝕄) :=
  Edge.Phi_out0 V c _ (by rw [Fin.val_last]; have : cfg0.N = 32 := N_0; omega)

end Cert.Kernel.Hand

end
-- ==== Proof.Bits.Data1.lean ====
/-
  The node-update phase (the second kernel region), one grid point: what its proof data are.
  Its body adds the two halves of the partial aggregate, joins the node features with the sum along the
  channel axis, runs the three-layer node MLP and adds the node features back: `out1` is that result block
  as the body's pure term of the eight input blocks.
-/
import proofs.«157347_j10196252360963_1_alg».proof.Proof.Gen.Kernel.Launch
import proofs.«157347_j10196252360963_1_alg».proof.Proof.Gen.Kernel.Skeleton
import proofs.«157347_j10196252360963_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two halves of the partial aggregate inside its 2 × 2048 × 256 block. -/
abbrev half0 : Rect S2x2048x256 := Rect.unit (s := S2x2048x256) ![0, 0, 0] S1x2048x256.size inb_S2x2048x256_S1x2048x256_0_0_0
abbrev half1 : Rect S2x2048x256 := Rect.unit (s := S2x2048x256) ![1, 0, 0] S1x2048x256.size inb_S2x2048x256_S1x2048x256_1_0_0

/-- What the body leaves in the result block: its pure term of the input blocks (partial aggregate, node
    features, and the node MLP's three weight matrices and biases). -/
def out1 (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) : Vec F S2048x256 .f32 :=
  k1_pay1 (k1_pay2 (View.ld x0 half0) (View.ld x0 half1) x1 x2 x3 x4 x5 x6) (k1_pay3 x7) x1

/-- The proof data of the node-update phase on core `c`, entered at contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1 (iblk1 V c 0 t) (iblk1 V c 1 t) (iblk1 V c 2 t) (iblk1 V c 3 t) (iblk1 V c 4 t) (iblk1 V c 5 t) (iblk1 V c 6 t) (iblk1 V c 7 t) := by
  dsimp only [dat1]

end Cert.Kernel.Hand

end
-- ==== Proof.Bits.Final.lean ====
/-
  The node-update phase's body at its one grid point: every input window's staging buffer holds its block, the body's
  loads read those blocks (the partial aggregate through its two halves, every other operand whole), and its one store
  through the whole result block leaves the body's pure term of the input blocks.
-/
import proofs.«157347_j10196252360963_1_alg».proof.Proof.Bits.Data1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's staging buffer holds its block at every point: the window is uncut and never idle, and the
    body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's staging buffer holds its block at every point: the window is uncut and never idle, and the
    body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's staging buffer holds its block at every point: the window is uncut and never idle, and the
    body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's staging buffer holds its block at every point: the window is uncut and never idle, and the
    body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's staging buffer holds its block at every point: the window is uncut and never idle, and the
    body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's staging buffer holds its block at every point: the window is uncut and never idle, and the
    body leaves the block in place. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's staging buffer holds its block at every point: the window is uncut and never idle, and the
    body leaves the block in place. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's staging buffer holds its block at every point: the window is uncut and never idle, and the
    body leaves the block in place. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body's whole-buffer rectangles -/

abbrev rW_2048x256 : Rect S2048x256 := Rect.unit (s := S2048x256) ![0, 0] S2048x256.size inb_S2048x256_S2048x256_0_0
abbrev rW_512x512 : Rect S512x512 := Rect.unit (s := S512x512) ![0, 0] S512x512.size inb_S512x512_S512x512_0_0
abbrev rW_512 : Rect S512 := Rect.unit (s := S512) ![0] S512.size inb_S512_S512_0
abbrev rW_256x512 : Rect S256x512 := Rect.unit (s := S256x512) ![0, 0] S256x512.size inb_S256x512_S256x512_0_0
abbrev rW_256 : Rect S256 := Rect.unit (s := S256) ![0] S256.size inb_S256_S256_0

theorem off2_zero : (![0, 0] : Fin 2 → Nat) = fun _ => 0 := funext fun a => by fin_cases a <;> rfl
theorem off1_zero : (![0] : Fin 1 → Nat) = fun _ => 0 := funext fun a => by fin_cases a <;> rfl

/-! ## What the body leaves in the result block -/

/-- The result block after the body as its one store's piece over the loads' rectangles. -/
def out1raw (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) : Vec F S2048x256 .f32 :=
  View.canon [⟨rW_2048x256, k1_pay1 (k1_pay2 (View.ld x0 half0) (View.ld x0 half1) (View.ld x1 rW_2048x256) (View.ld x2 rW_512x512)
    (View.ld x3 rW_512) (View.ld x4 rW_512x512) (View.ld x5 rW_512) (View.ld x6 rW_256x512)) (k1_pay3 (View.ld x7 rW_256)) (View.ld x1 rW_2048x256)⟩]

/-- A load through a whole-buffer rectangle reads the contents and the one covering store leaves its payload: the
    piece form is the pure term. -/
theorem out1raw_eq (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) :
    out1raw x0 x1 x2 x3 x4 x5 x6 x7 = out1 x0 x1 x2 x3 x4 x5 x6 x7 := by
  unfold out1raw out1
  rw [View.canon_unit_zero (S := S2048x256) off2_zero]
  simp only [View.ld_unit_zero (S := S2048x256) off2_zero, View.ld_unit_zero (S := S512x512) off2_zero,
    View.ld_unit_zero (S := S512) off1_zero, View.ld_unit_zero (S := S256x512) off2_zero,
    View.ld_unit_zero (S := S256) off1_zero]

/-- The one store covers the result block. -/
theorem cover1_8 (p0 : Vec F S2048x256 .f32) (y : S2048x256.Idx) :
    ∃ pc ∈ ([⟨rW_2048x256, p0⟩] : List (View.Piece (Elt F) S2048x256 .f32)), y ∈ pc.1.set :=
  ⟨_, List.mem_singleton_self _, View.mem_set_unit_zero off2_zero inb_S2048x256_S2048x256_0_0 y⟩

/-! ## The body's triple -/

set_option maxHeartbeats 4000000 in
/-- The kernel body on whole staging memrefs, the inputs' at read contents and the output's at anything, runs to the
    continuation holding the inputs' as they were and the output's at the pure term of the inputs'. -/
theorem sound_kernel1 (c : Dev nD) (E : Set ℕ) (i : grid1.Coords)
    (arg1 : Memref sig .tc .vmem S2x2048x256 .f32) (harg1 : arg1.IsWhole)
    (arg2 : Memref sig .tc .vmem S2048x256 .f32) (harg2 : arg2.IsWhole)
    (arg3 : Memref sig .tc .vmem S512x512 .f32) (harg3 : arg3.IsWhole)
    (arg4 : Memref sig .tc .vmem S512 .f32) (harg4 : arg4.IsWhole)
    (arg5 : Memref sig .tc .vmem S512x512 .f32) (harg5 : arg5.IsWhole)
    (arg6 : Memref sig .tc .vmem S512 .f32) (harg6 : arg6.IsWhole)
    (arg7 : Memref sig .tc .vmem S256x512 .f32) (harg7 : arg7.IsWhole)
    (arg8 : Memref sig .tc .vmem S256 .f32) (harg8 : arg8.IsWhole)
    (arg9 : Memref sig .tc .vmem S2048x256 .f32) (harg9 : arg9.IsWhole)
    (x0 : Vec F S2x2048x256 .f32) (x1 : Vec F S2048x256 .f32) (x2 : Vec F S512x512 .f32) (x3 : Vec F S512 .f32) (x4 : Vec F S512x512 .f32) (x5 : Vec F S512 .f32) (x6 : Vec F S256x512 .f32) (x7 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1 x0 x1 x2 x3 x4 x5 x6 x7)) -∗ K ⟨⟩))
      ⊢ wp frame (wpE (defs₀ (F := F)) Variants.none c none) E
          (cc1__final_kernel i arg1 harg1 arg2 harg2 arg3 harg3 arg4 harg4 arg5 harg5 arg6 harg6 arg7 harg7 arg8 harg8 arg9 harg9) K := by
  rw [← out1raw_eq]
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's triple applies; the invariant and the
    core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The launch: @main is the edge phase's region followed by the node-update phase's region. Between them every
  unscoped buffer of a core holds a named content: at launch the memory; after the edge phase the partial aggregate
  where that phase's write-backs leave it and everything else as launched; after the node-update phase the result
  array where its write-back leaves it and everything else as before it. The run's final memory is read against the
  last of these, which names the result array and leaves every argument as launched.
-/
import proofs.«157347_j10196252360963_1_alg».proof.Proof.Bits.Edge
import proofs.«157347_j10196252360963_1_alg».proof.Proof.Bits.Final
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch, read at the TensorCore's references: what the edge phase is entered at. -/
abbrev Vin : (c : Dev nD) → (b : Ref sig .tc) → Buf (Elt F) ((c : Thread nD τ).loc b) := fun c b => m ((c : Thread nD τ).loc b)

/-- After the edge phase: its arrays at what its write-backs leave (an input array as entered, the partial
    aggregate with every half's block written), every other buffer as launched. -/
def Wmid (c : Dev nD) : Valuation τ sig (Elt F) :=
  Pipeline.withArrays spec0 c (fun b => m (c, b)) fun w => (dat0 (Vin m) c).arrAt w cfg0.N

theorem Wmid_arr (c : Dev nD) (w : Fin cfg0.W) :
    Wmid m c (Proc.devRef .tc (Pipeline.arrRef spec0 w)) = (dat0 (Vin m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m c (Proc.devRef .tc b) = m ((c : Thread nD τ).loc b) := by
  unfold Wmid; exact Pipeline.withArrays_of_ne spec0 c _ _ b hb

/-- The same read at the TensorCore's references: what the node-update phase is entered at. -/
abbrev Vmid : (c : Dev nD) → (b : Ref sig .tc) → Buf (Elt F) ((c : Thread nD τ).loc b) := fun c b => Wmid m c b

/-- The edge phase's arrays at its exit are what its write-backs leave, every other buffer what it was. -/
theorem hF0 (c : Dev nD) (w : Fin cfg0.W) : (dat0 (Vin m) c).arrAt w cfg0.N = Vmid m c (Pipeline.arrRef spec0 w) :=
  (Wmid_arr m c w).symm
theorem hrest0 (c : Dev nD) : ∀ b, b ∉ Finset.univ.image (Pipeline.arrRef spec0) → Vmid m c b = Vin m c b :=
  fun b hb => Wmid_of_ne m c b fun w e => hb (Finset.mem_image.mpr ⟨w, Finset.mem_univ _, e⟩)

/-- The partial aggregate after the edge phase is what that phase's write-backs leave in it. -/
theorem Vmid_main_v0 (c : Dev nD) : Vmid m c main_v0 = (dat0 (Vin m) c).arrAt 7 cfg0.N := Wmid_arr m c 7

/-! The edge phase writes none of the arguments the node-update phase reads: an input array of the phase is
    never written, and a buffer that is no array of the phase is left alone. -/
theorem Vmid_main_arg0 (c : Dev nD) : Vmid m c main_arg0 = m ((c : Thread nD τ).loc main_arg0) :=
  (Wmid_arr m c 2).trans (((dat0 (Vin m) c).arrAt_in 2 rfl _).trans (A_eq0 (Vin m) c 2))
theorem Vmid_main_arg1 (c : Dev nD) : Vmid m c main_arg1 = m ((c : Thread nD τ).loc main_arg1) :=
  (Wmid_arr m c 0).trans (((dat0 (Vin m) c).arrAt_in 0 rfl _).trans (A_eq0 (Vin m) c 0))
theorem Vmid_main_arg2 (c : Dev nD) : Vmid m c main_arg2 = m ((c : Thread nD τ).loc main_arg2) :=
  (Wmid_arr m c 1).trans (((dat0 (Vin m) c).arrAt_in 1 rfl _).trans (A_eq0 (Vin m) c 1))
theorem Vmid_main_arg3 (c : Dev nD) : Vmid m c main_arg3 = m ((c : Thread nD τ).loc main_arg3) :=
  (Wmid_arr m c 3).trans (((dat0 (Vin m) c).arrAt_in 3 rfl _).trans (A_eq0 (Vin m) c 3))
theorem Vmid_main_arg4 (c : Dev nD) : Vmid m c main_arg4 = m ((c : Thread nD τ).loc main_arg4) :=
  (Wmid_arr m c 4).trans (((dat0 (Vin m) c).arrAt_in 4 rfl _).trans (A_eq0 (Vin m) c 4))
theorem Vmid_main_arg5 (c : Dev nD) : Vmid m c main_arg5 = m ((c : Thread nD τ).loc main_arg5) :=
  (Wmid_arr m c 5).trans (((dat0 (Vin m) c).arrAt_in 5 rfl _).trans (A_eq0 (Vin m) c 5))
theorem Vmid_main_arg6 (c : Dev nD) : Vmid m c main_arg6 = m ((c : Thread nD τ).loc main_arg6) :=
  (Wmid_arr m c 6).trans (((dat0 (Vin m) c).arrAt_in 6 rfl _).trans (A_eq0 (Vin m) c 6))
theorem Vmid_main_arg7 (c : Dev nD) : Vmid m c main_arg7 = m ((c : Thread nD τ).loc main_arg7) :=
  Wmid_of_ne m c main_arg7 (by decide)
theorem Vmid_main_arg8 (c : Dev nD) : Vmid m c main_arg8 = m ((c : Thread nD τ).loc main_arg8) :=
  Wmid_of_ne m c main_arg8 (by decide)
theorem Vmid_main_arg9 (c : Dev nD) : Vmid m c main_arg9 = m ((c : Thread nD τ).loc main_arg9) :=
  Wmid_of_ne m c main_arg9 (by decide)
theorem Vmid_main_arg10 (c : Dev nD) : Vmid m c main_arg10 = m ((c : Thread nD τ).loc main_arg10) :=
  Wmid_of_ne m c main_arg10 (by decide)
theorem Vmid_main_arg11 (c : Dev nD) : Vmid m c main_arg11 = m ((c : Thread nD τ).loc main_arg11) :=
  Wmid_of_ne m c main_arg11 (by decide)
theorem Vmid_main_arg12 (c : Dev nD) : Vmid m c main_arg12 = m ((c : Thread nD τ).loc main_arg12) :=
  Wmid_of_ne m c main_arg12 (by decide)

/-- After the node-update phase: its arrays at what its write-back leaves, every other buffer as before it. -/
def Wend (c : Dev nD) : Valuation τ sig (Elt F) :=
  Pipeline.withArrays spec1 c (Wmid m c) fun w => (dat1 (Vmid m) c).arrAt w cfg1.N

theorem Wend_arr (c : Dev nD) (w : Fin cfg1.W) :
    Wend m c (Proc.devRef .tc (Pipeline.arrRef spec1 w)) = (dat1 (Vmid m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m c (Proc.devRef .tc b) = Wmid m c (Proc.devRef .tc b) := by
  unfold Wend; exact Pipeline.withArrays_of_ne spec1 c _ _ b hb

abbrev Vend : (c : Dev nD) → (b : Ref sig .tc) → Buf (Elt F) ((c : Thread nD τ).loc b) := fun c b => Wend m c b

theorem hF1 (c : Dev nD) (w : Fin cfg1.W) : (dat1 (Vmid m) c).arrAt w cfg1.N = Vend m c (Pipeline.arrRef spec1 w) :=
  (Wend_arr m c w).symm
theorem hrest1 (c : Dev nD) : ∀ b, b ∉ Finset.univ.image (Pipeline.arrRef spec1) → Vend m c b = Vmid m c b :=
  fun b hb => Wend_of_ne m c b fun w e => hb (Finset.mem_image.mpr ⟨w, Finset.mem_univ _, e⟩)

/-- The result array at the end is what the node-update phase's write-back leaves in it. -/
theorem Wend_main_v1 (c : Dev nD) : Wend m c (Proc.devRef .tc main_v1) = (dat1 (Vmid m) c).arrAt 8 cfg1.N := Wend_arr m c 8

/-! Every argument ends as launched: the node-update phase writes none, and neither did the edge phase. -/
theorem Wend_main_arg0 (c : Dev nD) : Wend m c (Proc.devRef .tc main_arg0) = m ((c : Thread nD τ).loc main_arg0) :=
  ((Wend_arr m c 1).trans (((dat1 (Vmid m) c).arrAt_in 1 rfl _).trans (A_eq1 (Vmid m) c 1))).trans (Vmid_main_arg0 m c)
theorem Wend_main_arg1 (c : Dev nD) : Wend m c (Proc.devRef .tc main_arg1) = m ((c : Thread nD τ).loc main_arg1) :=
  (Wend_of_ne m c main_arg1 (by decide)).trans (Vmid_main_arg1 m c)
theorem Wend_main_arg2 (c : Dev nD) : Wend m c (Proc.devRef .tc main_arg2) = m ((c : Thread nD τ).loc main_arg2) :=
  (Wend_of_ne m c main_arg2 (by decide)).trans (Vmid_main_arg2 m c)
theorem Wend_main_arg3 (c : Dev nD) : Wend m c (Proc.devRef .tc main_arg3) = m ((c : Thread nD τ).loc main_arg3) :=
  (Wend_of_ne m c main_arg3 (by decide)).trans (Vmid_main_arg3 m c)
theorem Wend_main_arg4 (c : Dev nD) : Wend m c (Proc.devRef .tc main_arg4) = m ((c : Thread nD τ).loc main_arg4) :=
  (Wend_of_ne m c main_arg4 (by decide)).trans (Vmid_main_arg4 m c)
theorem Wend_main_arg5 (c : Dev nD) : Wend m c (Proc.devRef .tc main_arg5) = m ((c : Thread nD τ).loc main_arg5) :=
  (Wend_of_ne m c main_arg5 (by decide)).trans (Vmid_main_arg5 m c)
theorem Wend_main_arg6 (c : Dev nD) : Wend m c (Proc.devRef .tc main_arg6) = m ((c : Thread nD τ).loc main_arg6) :=
  (Wend_of_ne m c main_arg6 (by decide)).trans (Vmid_main_arg6 m c)
theorem Wend_main_arg7 (c : Dev nD) : Wend m c (Proc.devRef .tc main_arg7) = m ((c : Thread nD τ).loc main_arg7) :=
  ((Wend_arr m c 2).trans (((dat1 (Vmid m) c).arrAt_in 2 rfl _).trans (A_eq1 (Vmid m) c 2))).trans (Vmid_main_arg7 m c)
theorem Wend_main_arg8 (c : Dev nD) : Wend m c (Proc.devRef .tc main_arg8) = m ((c : Thread nD τ).loc main_arg8) :=
  ((Wend_arr m c 3).trans (((dat1 (Vmid m) c).arrAt_in 3 rfl _).trans (A_eq1 (Vmid m) c 3))).trans (Vmid_main_arg8 m c)
theorem Wend_main_arg9 (c : Dev nD) : Wend m c (Proc.devRef .tc main_arg9) = m ((c : Thread nD τ).loc main_arg9) :=
  ((Wend_arr m c 4).trans (((dat1 (Vmid m) c).arrAt_in 4 rfl _).trans (A_eq1 (Vmid m) c 4))).trans (Vmid_main_arg9 m c)
theorem Wend_main_arg10 (c : Dev nD) : Wend m c (Proc.devRef .tc main_arg10) = m ((c : Thread nD τ).loc main_arg10) :=
  ((Wend_arr m c 5).trans (((dat1 (Vmid m) c).arrAt_in 5 rfl _).trans (A_eq1 (Vmid m) c 5))).trans (Vmid_main_arg10 m c)
theorem Wend_main_arg11 (c : Dev nD) : Wend m c (Proc.devRef .tc main_arg11) = m ((c : Thread nD τ).loc main_arg11) :=
  ((Wend_arr m c 6).trans (((dat1 (Vmid m) c).arrAt_in 6 rfl _).trans (A_eq1 (Vmid m) c 6))).trans (Vmid_main_arg11 m c)
theorem Wend_main_arg12 (c : Dev nD) : Wend m c (Proc.devRef .tc main_arg12) = m ((c : Thread nD τ).loc main_arg12) :=
  ((Wend_arr m c 7).trans (((dat1 (Vmid m) c).arrAt_in 7 rfl _).trans (A_eq1 (Vmid m) c 7))).trans (Vmid_main_arg12 m c)

/-! ## The proof data family and the thread state -/

/-- The prefetched tables' admissible contents: neither phase has a table. -/
abbrev adm : (p : Fin 2) → (pcfgs (F := F) p).Adm := fun p => (cfgs p).toPCfg_adm
/-- Both phases' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wend m c) ∗ ∃ r, prngReg c r)

/-! ## The regions as segments -/

set_option backward.isDefEq.respectTransparency.types false in
/-- The edge phase over the thread state: entered from every unscoped buffer as launched, left at `Wmid`. Its
    arrays split out of the unscoped buffers and are put back at the exit contents; the generator register and the
    scoped buffers outside the pipeline's enter the phase's own invariant through the class invariant and leave it
    the same way; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ L lv 0 fun _ _ => rfl
  pre c := iprop(StableHlo.held (c : Thread nD τ) (Pipeline.ucRefs τ sig) (fun b => m (c, b)) ∗ R c)
  post c := iprop(StableHlo.held (c : Thread nD τ) (Pipeline.ucRefs τ sig) (Wmid m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held c (fun b => m (c, b))] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin m) c)
    unfold Pipeline.ΦA
    iintro ⟨Hp, -, Hr⟩
    isplitl [Hr]; · iexact Hr
    iexact Hp
  hout c := by
    rw [Pipeline.ownSems0_none]
    refine BIBase.Entails.trans (hout0 (Vin m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vmid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node-update phase over the thread state: entered from every unscoped buffer at `Wmid`, left at `Wend`.
    Its arrays split out of the unscoped buffers and are put back at the exit contents; the generator register into
    the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m) c).loose
  hwaits := Pipeline.hwaits_of_owed_zero _ _ _ _ L lv 1 fun _ _ => rfl
  pre c := iprop(StableHlo.held (c : Thread nD τ) (Pipeline.ucRefs τ sig) (Wmid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main is the run of the two regions. -/
theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of @main on the TensorCores terminates, nothing
    faulting, and every final memory has the result array at what the node-update phase's write-back leaves from the
    contents after the edge phase, and every argument array as launched: the last thread state read against the
    final state. -/
theorem run_named : θ_run defs (onTc (τ := τ) (main (F := F))) ⟨m, fun _ => 0, ρ⟩ (fun r => ∀ c : Dev nD,
      r.2.mem ((c.tc : Thread nD τ).loc main_v1) = (dat1 (Vmid m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c =>
      ⟨(h c _ (mem_uc main_v1 (by decide))).trans (Wend_main_v1 m c),
        (h c _ (mem_uc main_arg0 (by decide))).trans (Wend_main_arg0 m c),
        (h c _ (mem_uc main_arg1 (by decide))).trans (Wend_main_arg1 m c),
        (h c _ (mem_uc main_arg2 (by decide))).trans (Wend_main_arg2 m c),
        (h c _ (mem_uc main_arg3 (by decide))).trans (Wend_main_arg3 m c),
        (h c _ (mem_uc main_arg4 (by decide))).trans (Wend_main_arg4 m c),
        (h c _ (mem_uc main_arg5 (by decide))).trans (Wend_main_arg5 m c),
        (h c _ (mem_uc main_arg6 (by decide))).trans (Wend_main_arg6 m c),
        (h c _ (mem_uc main_arg7 (by decide))).trans (Wend_main_arg7 m c),
        (h c _ (mem_uc main_arg8 (by decide))).trans (Wend_main_arg8 m c),
        (h c _ (mem_uc main_arg9 (by decide))).trans (Wend_main_arg9 m c),
        (h c _ (mem_uc main_arg10 (by decide))).trans (Wend_main_arg10 m c),
        (h c _ (mem_uc main_arg11 (by decide))).trans (Wend_main_arg11 m c),
        (h c _ (mem_uc main_arg12 (by decide))).trans (Wend_main_arg12 m c)⟩)

end Cert.Kernel.Hand

end
-- ==== Proof.Data0.lean ====
/-
  The edge phase (the first kernel region) on a grid of 2 × 16 points: what its proof data are.
  Point t = 16·h + i handles the 1024 edges [1024·t, 1024·t + 1024). Its body computes, from the tile's rows of
  the two incidence matrices and the whole node features and message weights, the tile's contribution
  `tilePart` to the aggregate (for every node n and channel r the sum over the tile's edges e of
  rel_rec[e, n] · msg[e, r]), and adds it into a scratch accumulator that it has zeroed at i = 0; at i = 15
  it copies the accumulator into the half's output block. `accAt0 n` is the accumulator after point n,
  `outAt0 n` the output block the body leaves there (meaningful at i = 15 only, elsewhere the window is idle).
-/
import proofs.«157347_j10196252360963_1_alg».proof.Proof.Gen.KernelIdeal.Launch
import proofs.«157347_j10196252360963_1_alg».proof.Proof.Gen.KernelIdeal.Skeleton
import proofs.«157347_j10196252360963_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's contribution to the aggregate: the body's pure term of the seven input blocks at point `t`. -/
def tilePart (c : Dev nD) (t : Fin cfg0.N) : Vec F S2048x256 .f32 :=
  k0_pay4 (iblk0 V c 0 t) (iblk0 V c 1 t) (iblk0 V c 2 t) (iblk0 V c 3 t) (iblk0 V c 4 t) (iblk0 V c 5 t) (iblk0 V c 6 t)

/-- The accumulator after point `n`: restarted from zero at the first point of each half (n ≡ 0 mod 16),
    otherwise the previous point's plus this tile's contribution. -/
def accAt0 (c : Dev nD) : (n : ℕ) → n < cfg0.N → Vec F S2048x256 .f32
  | 0, hn => k0_pay1 (tilePart V c ⟨0, hn⟩) (k0_pay3 (F := F))
  | n + 1, hn =>
    if (n + 1) % 16 = 0 then k0_pay1 (tilePart V c ⟨n + 1, hn⟩) (k0_pay3 (F := F))
    else k0_pay1 (tilePart V c ⟨n + 1, hn⟩) (accAt0 c n (Nat.lt_of_succ_lt hn))

theorem accAt0_reset (c : Dev nD) (t : Fin cfg0.N) (h : t.val % 16 = 0) :
    accAt0 V c t.val t.isLt = k0_pay1 (tilePart V c t) (k0_pay3 (F := F)) := by
  obtain ⟨n, hn⟩ := t
  cases n with
  | zero => rfl
  | succ n => exact (if_pos h).trans rfl

theorem accAt0_step (c : Dev nD) (t : Fin cfg0.N) (h : ¬t.val % 16 = 0) :
    accAt0 V c t.val t.isLt = k0_pay1 (tilePart V c t) (accAt0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The output block the body leaves at point `n`: the accumulator, as a 1 × 2048 × 256 block. -/
def outAt0 (c : Dev nD) (n : ℕ) (hn : n < cfg0.N) : Vec F S1x2048x256 .f32 := k0_pay2 (accAt0 V c n hn)

/-- The scratch accumulator as a memref. -/
abbrev scM0 : Memref sig .tc .vmem S2048x256 .f32 := Memref.whole cc0_scratch0

/-- The region's invariant before point `n`: before the first point every scoped buffer outside the
    pipeline's at anything; afterwards the accumulator at what the point before left, the other such
    buffers at anything, and the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f))
      ∗ (∃ r, prngReg c r))

/-- The proof data of the edge phase on core `c`, entered at contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t.val t.isLt := by dsimp only [dat0]

end Cert.KernelIdeal.Hand

end
-- ==== Proof.Edge.lean ====
/-
  The edge phase's body at every grid point.
  Point t = 16·h + i of the 2 × 16 grid finds the seven input blocks in their buffers, the accumulator at what
  point t − 1 left (at anything before the first point), and the output buffer at anything. Every load and
  store of the body goes through a whole buffer at zero offsets, so: if i = 0 the accumulator is first set to
  zero; the tile's contribution is added to it; if i = 15 it is then copied to the output block, which is
  otherwise left as found. These are the closed terms of the proof data (the accumulator after point t, the
  output block at a copying point), case by case: i = 0, 0 < i < 15, i = 15. Before the first point the
  invariant is what the launch hands over, and after the last it gives that back by forgetting what the
  accumulator holds.
-/
import proofs.«157347_j10196252360963_1_alg».proof.Proof.Data0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Edge

/-! ## Zero offsets, however spelt -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's two conditions, over the grid -/

/-- The accumulator is zeroed where the point's second coordinate is 0, -/
abbrev condR (i : grid0.Coords) : Prop := (Scalar.cmpi .ne (Scalar.extui (Scalar.cmpi .eq (BitVec.ofNat 32 (i 1).val) 0#32)) 0#32) = 1#1
/-- and copied to the output block where it is 15. -/
abbrev condS (i : grid0.Coords) : Prop := k0_cond2 i = 1#1

/-- Point t = 16·h + i has second coordinate i: it is 0 exactly when t ≡ 0 (mod 16), -/
theorem hcondR : ∀ t : Fin cfg0.N, condR (grid0.coords t) ↔ t.val % 16 = 0 :=
  (by decide +kernel : ∀ t : Fin grid0.N, condR (grid0.coords t) ↔ t.val % 16 = 0)
/-- and 15 exactly when t ≡ 15 (mod 16). -/
theorem hcondS : ∀ t : Fin cfg0.N, condS (grid0.coords t) ↔ t.val % 16 = 15 :=
  (by decide +kernel : ∀ t : Fin grid0.N, condS (grid0.coords t) ↔ t.val % 16 = 15)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
/-- The output window is idle, and not written back, at the points that do not copy the accumulator out; -/
theorem idle0_7 : ∀ t : Fin cfg0.N, ¬condS (grid0.coords t) → cfg0.idle 7 (grid0.coords t) = true := by decide +kernel
theorem noFlush0_7 : ∀ t : Fin cfg0.N, ¬condS (grid0.coords t) → (cfg0.win 7).flush t = false := by decide +kernel
/-- live at those that do. -/
theorem live0_7 : ∀ t : Fin cfg0.N, condS (grid0.coords t) → cfg0.idle 7 (grid0.coords t) = false := by decide +kernel

/-! ## The staging memrefs at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .f32 := win0_7.stage (cfg0.slots t 7)
abbrev hs0_7 (t : Fin cfg0.N) : (ms0_7 t).IsWhole := hstage0_7 ((cfg0.slots t 7).cast nbuf0_7)

/-! ## The invariant, point by point -/

/-- The scoped buffers beside the accumulator, each at anything. -/
def restS (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point n: the accumulator at that point's contents. -/
theorem PhiS0_succ (c : Dev nD) (n : ℕ) (hn : n < cfg0.N) :
    PhiS0 V c (n + 1) hn = iprop(iprop(owns (c : Thread nD τ) scM0 fullShare (accAt0 V c n hn) ∗ restS (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (accAt0 V c (n - 1) (by omega)) ∗ restS (F := F) c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body on any whole staging memrefs, case by case

Every load and store of the body is through the whole-buffer rectangle at zero offsets, so a load reads the
buffer's contents, a store leaves its payload, and a load after a store reads that payload. -/

set_option maxHeartbeats 4000000 in
/-- A point that neither zeroes nor copies out (second coordinate strictly between 0 and 15): the accumulator
    gains the tile's contribution; the output buffer is handed back untouched. -/
theorem run_mid (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : ¬condR i) (hcS : ¬condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (xo : Vec F S1x2048x256 .f32) (acc : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (k0_pay1 (k0_pay4 x0 x1 x2 x3 x4 x5 x6) acc)) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fa, %hfa, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf9; obtain rfl := harg10.eq_unread hfa
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr; · ipureintro; exact harg9.read_unread _
    iexact H9
  iexists _; isplitr
  swap; · iexact HA
  ipureintro
  sl_unfold_words
  rw [View.read_writes_eq_canon _ _ _ (fun y => ⟨_, List.mem_singleton_self _, View.mem_set_unit_zero hz2 inb_S2048x256_S2048x256_0_0 y⟩)]
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

set_option maxHeartbeats 4000000 in
/-- A point that zeroes (second coordinate 0) and does not copy out: the accumulator, whatever it held, ends at
    zero plus the tile's contribution; the output buffer is handed back untouched. -/
theorem run_reset (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : condR i) (hcS : ¬condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (xo : Vec F S1x2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (k0_pay1 (k0_pay4 x0 x1 x2 x3 x4 x5 x6) (k0_pay3 (F := F)))) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%da, %fa, -, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf9
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr; · ipureintro; exact harg9.read_unread _
    iexact H9
  iexists _; isplitr
  swap; · iexact HA
  ipureintro
  sl_unfold_words
  rw [View.read_writes_eq_canon _ _ _ (fun y => ⟨_, List.mem_cons.mpr (Or.inl rfl), View.mem_set_unit_zero hz2 inb_S2048x256_S2048x256_0_0 y⟩)]
  rw [View.canon_cons_unit_zero (S := S2048x256) hz2]
  simp only [View.readCov_unit_zero (S := S2048x256) _ hz2, View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

set_option maxHeartbeats 4000000 in
/-- A point that copies out (second coordinate 15) and does not zero: the accumulator gains the tile's
    contribution, and the output buffer, whatever it held, ends at the accumulator as a 1 × 2048 × 256 block. -/
theorem run_store (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S512 .f32) (harg6 : arg6.IsWhole) (arg7 : Memref sig .tc .vmem S256x512 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (hcR : ¬condR i) (hcS : condS i)
    (x0 : Vec F S1024x2048 .f32) (x1 : Vec F S1024x2048 .f32) (x2 : Vec F S2048x256 .f32) (x3 : Vec F S512x512 .f32) (x4 : Vec F S512 .f32) (x5 : Vec F S256x512 .f32) (x6 : Vec F S256 .f32) (acc : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (k0_pay1 (k0_pay4 x0 x1 x2 x3 x4 x5 x6) acc)) ∗ owns (c : Thread nD τ) arg10 fullShare (k0_pay1 (k0_pay4 x0 x1 x2 x3 x4 x5 x6) acc)) -∗ K ⟨⟩))
      ⊢ wp frame (wpE (defs₀ (F := F)) Variants.none c none) E (cc0__edge_kernel i arg2 harg2 arg3 harg3 arg4 harg4 arg5 harg5 arg6 harg6 arg7 harg7 arg8 harg8 arg9 harg9 arg10 harg10) K := by
  simp only [cc0__edge_kernel_eq_skeleton]; unfold cc0__edge_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fa, %hfa, HA⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfa
  sl_exec (disch := first | exact hcR | exact hcS)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    sl_unfold_words
    rw [View.read_writes_eq_canon _ _ _ (fun y => ⟨_, List.mem_singleton_self _, View.mem_set_unit_zero hz3 inb_S1x2048x256_S1x2048x256_0_0_0 y⟩)]
    rw [View.canon_unit_zero hz3]
    simp only [View.readCov_unit_zero (S := S2048x256) _ hz2, View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]
  iexists _; isplitr
  swap; · iexact HA
  ipureintro
  sl_unfold_words
  rw [View.read_writes_eq_canon _ _ _ (fun y => ⟨_, List.mem_singleton_self _, View.mem_set_unit_zero hz2 inb_S2048x256_S2048x256_0_0 y⟩)]
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x2048) hz2, View.ld_unit_zero (S := S2048x256) hz2, View.ld_unit_zero (S := S512x512) hz2, View.ld_unit_zero (S := S512) hz1, View.ld_unit_zero (S := S256x512) hz2, View.ld_unit_zero (S := S256) hz1, View.ld_unit_zero (S := S1x2048x256) hz3]

/-! ## The body obligation at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks. Point t = 16·h + i zeroes the accumulator
    iff i = 0 (t ≡ 0 mod 16) and copies it out iff i = 15 (t ≡ 15 mod 16); in each of the three cases that
    occur the accumulator ends at the closed term for the point (zero or the previous point's, plus the tile's
    contribution), and the output buffer at the accumulator's block or, where idle, as it was found. The invariant
    hands the accumulator at anything before the first point and at the previous point's term afterwards. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  have hN : t.val < 32 := lt_of_lt_of_eq t.isLt (show cfg0.N = 32 from N_0)
  by_cases h0 : t.val % 16 = 0
  · by_cases h15 : t.val % 16 = 15
    · exfalso; omega
    · have hR : condR (grid0.coords t) := (hcondR t).mpr h0
      have hS : ¬condS (grid0.coords t) := fun h => h15 ((hcondS t).mp h)
      rw [Dat.leavesExact_idle (dat0 V c) 7 t (idle0_7 t hS) (noFlush0_7 t hS)]
      rw [accAt0_reset V c t h0]; unfold tilePart
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_reset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_reset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    have hR : ¬condR (grid0.coords t) := fun h => h0 ((hcondR t).mp h)
    rw [accAt0_step V c t h0]
    by_cases h15 : t.val % 16 = 15
    · have hS : condS (grid0.coords t) := (hcondS t).mpr h15
      rw [show (dat0 V c).leavesExact 7 t = owns (c : Thread nD τ) (ms0_7 t) fullShare ((dat0 V c).after 7 t) from by
        unfold Dat.leavesExact; rw [live0_7 t hS], after0_7]
      unfold outAt0
      rw [accAt0_step V c t h0]; unfold tilePart
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_store c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hS : ¬condS (grid0.coords t) := fun h => h15 ((hcondS t).mp h)
      rw [Dat.leavesExact_idle (dat0 V c) 7 t (idle0_7 t hS) (noFlush0_7 t hS)]
      unfold tilePart
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hR hS (iblk0 V c 0 t) (iblk0 V c 1 t) (iblk0 V c 2 t) (iblk0 V c 3 t) (iblk0 V c 4 t) (iblk0 V c 5 t) (iblk0 V c 6 t) ((dat0 V c).before 7 t d7) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- After any point but the first the invariant gives the launch's back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

end Edge

/-! ## The three facts the region's run takes -/

/-- The library's body obligation, at every point. -/
theorem body_obligation0 (c : Dev nD) : BodyObligation (dat0 (F := F) V c) (defs₀ (F := F)) Variants.none () Set.univ := fun t => by
  rw [bigSep_W0, bigSep_W0]
  exact Edge.sound_body V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, Edge.PhiS0_zero V c 0 _ rfl]

/-- After the last point the invariant gives back what the launch handed over. -/
theorem hout0 (c : Dev nD) : (dat0 V c).Φ (Fin.last cfg0.N) ⊢ (Pipeline.ΦA spec0 c : sProp 𝕄) :=
  Edge.Phi_out0 V c _ (by rw [Fin.val_last]; have : cfg0.N = 32 := N_0; omega)

end Cert.KernelIdeal.Hand

end
-- ==== Proof.Data1.lean ====
/-
  The node-update phase (the second kernel region), one grid point: what its proof data are.
  Its body adds the two halves of the partial aggregate, joins the node features with the sum along the
  channel axis, runs the three-layer node MLP and adds the node features back: `out1` is that result block
  as the body's pure term of the eight input blocks.
-/
import proofs.«157347_j10196252360963_1_alg».proof.Proof.Gen.KernelIdeal.Launch
import proofs.«157347_j10196252360963_1_alg».proof.Proof.Gen.KernelIdeal.Skeleton
import proofs.«157347_j10196252360963_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two halves of the partial aggregate inside its 2 × 2048 × 256 block. -/
abbrev half0 : Rect S2x2048x256 := Rect.unit (s := S2x2048x256) ![0, 0, 0] S1x2048x256.size inb_S2x2048x256_S1x2048x256_0_0_0
abbrev half1 : Rect S2x2048x256 := Rect.unit (s := S2x2048x256) ![1, 0, 0] S1x2048x256.size inb_S2x2048x256_S1x2048x256_1_0_0

/-- What the body leaves in the result block: its pure term of the input blocks (partial aggregate, node
    features, and the node MLP's three weight matrices and biases). -/
def out1 (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) : Vec F S2048x256 .f32 :=
  k1_pay1 (k1_pay2 (View.ld x0 half0) (View.ld x0 half1) x1 x2 x3 x4 x5 x6) (k1_pay3 x7) x1

/-- The proof data of the node-update phase on core `c`, entered at contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1 (iblk1 V c 0 t) (iblk1 V c 1 t) (iblk1 V c 2 t) (iblk1 V c 3 t) (iblk1 V c 4 t) (iblk1 V c 5 t) (iblk1 V c 6 t) (iblk1 V c 7 t) := by
  dsimp only [dat1]

end Cert.KernelIdeal.Hand

end
-- ==== Proof.Final.lean ====
/-
  The node-update phase's body at its one grid point: every input window's staging buffer holds its block, the body's
  loads read those blocks (the partial aggregate through its two halves, every other operand whole), and its one store
  through the whole result block leaves the body's pure term of the input blocks.
-/
import proofs.«157347_j10196252360963_1_alg».proof.Proof.Data1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's staging buffer holds its block at every point: the window is uncut and never idle, and the
    body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's staging buffer holds its block at every point: the window is uncut and never idle, and the
    body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's staging buffer holds its block at every point: the window is uncut and never idle, and the
    body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's staging buffer holds its block at every point: the window is uncut and never idle, and the
    body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's staging buffer holds its block at every point: the window is uncut and never idle, and the
    body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's staging buffer holds its block at every point: the window is uncut and never idle, and the
    body leaves the block in place. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's staging buffer holds its block at every point: the window is uncut and never idle, and the
    body leaves the block in place. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's staging buffer holds its block at every point: the window is uncut and never idle, and the
    body leaves the block in place. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body's whole-buffer rectangles -/

abbrev rW_2048x256 : Rect S2048x256 := Rect.unit (s := S2048x256) ![0, 0] S2048x256.size inb_S2048x256_S2048x256_0_0
abbrev rW_512x512 : Rect S512x512 := Rect.unit (s := S512x512) ![0, 0] S512x512.size inb_S512x512_S512x512_0_0
abbrev rW_512 : Rect S512 := Rect.unit (s := S512) ![0] S512.size inb_S512_S512_0
abbrev rW_256x512 : Rect S256x512 := Rect.unit (s := S256x512) ![0, 0] S256x512.size inb_S256x512_S256x512_0_0
abbrev rW_256 : Rect S256 := Rect.unit (s := S256) ![0] S256.size inb_S256_S256_0

theorem off2_zero : (![0, 0] : Fin 2 → Nat) = fun _ => 0 := funext fun a => by fin_cases a <;> rfl
theorem off1_zero : (![0] : Fin 1 → Nat) = fun _ => 0 := funext fun a => by fin_cases a <;> rfl

/-! ## What the body leaves in the result block -/

/-- The result block after the body as its one store's piece over the loads' rectangles. -/
def out1raw (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) : Vec F S2048x256 .f32 :=
  View.canon [⟨rW_2048x256, k1_pay1 (k1_pay2 (View.ld x0 half0) (View.ld x0 half1) (View.ld x1 rW_2048x256) (View.ld x2 rW_512x512)
    (View.ld x3 rW_512) (View.ld x4 rW_512x512) (View.ld x5 rW_512) (View.ld x6 rW_256x512)) (k1_pay3 (View.ld x7 rW_256)) (View.ld x1 rW_2048x256)⟩]

/-- A load through a whole-buffer rectangle reads the contents and the one covering store leaves its payload: the
    piece form is the pure term. -/
theorem out1raw_eq (x0 : Vec F S2x2048x256 .f32) (x1 : Vec F S2048x256 .f32) (x2 : Vec F S512x512 .f32) (x3 : Vec F S512 .f32)
    (x4 : Vec F S512x512 .f32) (x5 : Vec F S512 .f32) (x6 : Vec F S256x512 .f32) (x7 : Vec F S256 .f32) :
    out1raw x0 x1 x2 x3 x4 x5 x6 x7 = out1 x0 x1 x2 x3 x4 x5 x6 x7 := by
  unfold out1raw out1
  rw [View.canon_unit_zero (S := S2048x256) off2_zero]
  simp only [View.ld_unit_zero (S := S2048x256) off2_zero, View.ld_unit_zero (S := S512x512) off2_zero,
    View.ld_unit_zero (S := S512) off1_zero, View.ld_unit_zero (S := S256x512) off2_zero,
    View.ld_unit_zero (S := S256) off1_zero]

/-- The one store covers the result block. -/
theorem cover1_8 (p0 : Vec F S2048x256 .f32) (y : S2048x256.Idx) :
    ∃ pc ∈ ([⟨rW_2048x256, p0⟩] : List (View.Piece (Elt F) S2048x256 .f32)), y ∈ pc.1.set :=
  ⟨_, List.mem_singleton_self _, View.mem_set_unit_zero off2_zero inb_S2048x256_S2048x256_0_0 y⟩

/-! ## The body's triple -/

set_option maxHeartbeats 4000000 in
/-- The kernel body on whole staging memrefs, the inputs' at read contents and the output's at anything, runs to the
    continuation holding the inputs' as they were and the output's at the pure term of the inputs'. -/
theorem sound_kernel1 (c : Dev nD) (E : Set ℕ) (i : grid1.Coords)
    (arg1 : Memref sig .tc .vmem S2x2048x256 .f32) (harg1 : arg1.IsWhole)
    (arg2 : Memref sig .tc .vmem S2048x256 .f32) (harg2 : arg2.IsWhole)
    (arg3 : Memref sig .tc .vmem S512x512 .f32) (harg3 : arg3.IsWhole)
    (arg4 : Memref sig .tc .vmem S512 .f32) (harg4 : arg4.IsWhole)
    (arg5 : Memref sig .tc .vmem S512x512 .f32) (harg5 : arg5.IsWhole)
    (arg6 : Memref sig .tc .vmem S512 .f32) (harg6 : arg6.IsWhole)
    (arg7 : Memref sig .tc .vmem S256x512 .f32) (harg7 : arg7.IsWhole)
    (arg8 : Memref sig .tc .vmem S256 .f32) (harg8 : arg8.IsWhole)
    (arg9 : Memref sig .tc .vmem S2048x256 .f32) (harg9 : arg9.IsWhole)
    (x0 : Vec F S2x2048x256 .f32) (x1 : Vec F S2048x256 .f32) (x2 : Vec F S512x512 .f32) (x3 : Vec F S512 .f32) (x4 : Vec F S512x512 .f32) (x5 : Vec F S512 .f32) (x6 : Vec F S256x512 .f32) (x7 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1 x0 x1 x2 x3 x4 x5 x6 x7)) -∗ K ⟨⟩))
      ⊢ wp frame (wpE (defs₀ (F := F)) Variants.none c none) E
          (cc1__final_kernel i arg1 harg1 arg2 harg2 arg3 harg3 arg4 harg4 arg5 harg5 arg6 harg6 arg7 harg7 arg8 harg8 arg9 harg9) K := by
  rw [← out1raw_eq]
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's triple applies; the invariant and the
    core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The launch: @main is the edge phase's region followed by the node-update phase's region. Between them every
  unscoped buffer of a core holds a named content: at launch the memory; after the edge phase the partial aggregate
  where that phase's write-backs leave it and everything else as launched; after the node-update phase the result
  array where its write-back leaves it and everything else as before it. The run's final memory is read against the
  last of these, which names the result array and leaves every argument as launched.
-/
import proofs.«157347_j10196252360963_1_alg».proof.Proof.Edge
import proofs.«157347_j10196252360963_1_alg».proof.Proof.Final
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch, read at the TensorCore's references: what the edge phase is entered at. -/
abbrev Vin : (c : Dev nD) → (b : Ref sig .tc) → Buf (Elt F) ((c : Thread nD τ).loc b) := fun c b => m ((c : Thread nD τ).loc b)

/-- After the edge phase: its arrays at what its write-backs leave (an input array as entered, the partial
    aggregate with every half's block written), every other buffer as launched. -/
def Wmid (c : Dev nD) : Valuation τ sig (Elt F) :=
  Pipeline.withArrays spec0 c (fun b => m (c, b)) fun w => (dat0 (Vin m) c).arrAt w cfg0.N

theorem Wmid_arr (c : Dev nD) (w : Fin cfg0.W) :
    Wmid m c (Proc.devRef .tc (Pipeline.arrRef spec0 w)) = (dat0 (Vin m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m c (Proc.devRef .tc b) = m ((c : Thread nD τ).loc b) := by
  unfold Wmid; exact Pipeline.withArrays_of_ne spec0 c _ _ b hb

/-- The same read at the TensorCore's references: what the node-update phase is entered at. -/
abbrev Vmid : (c : Dev nD) → (b : Ref sig .tc) → Buf (Elt F) ((c : Thread nD τ).loc b) := fun c b => Wmid m c b

/-- The edge phase's arrays at its exit are what its write-backs leave, every other buffer what it was. -/
theorem hF0 (c : Dev nD) (w : Fin cfg0.W) : (dat0 (Vin m) c).arrAt w cfg0.N = Vmid m c (Pipeline.arrRef spec0 w) :=
  (Wmid_arr m c w).symm
theorem hrest0 (c : Dev nD) : ∀ b, b ∉ Finset.univ.image (Pipeline.arrRef spec0) → Vmid m c b = Vin m c b :=
  fun b hb => Wmid_of_ne m c b fun w e => hb (Finset.mem_image.mpr ⟨w, Finset.mem_univ _, e⟩)

/-- The partial aggregate after the edge phase is what that phase's write-backs leave in it. -/
theorem Vmid_main_v0 (c : Dev nD) : Vmid m c main_v0 = (dat0 (Vin m) c).arrAt 7 cfg0.N := Wmid_arr m c 7

/-! The edge phase writes none of the arguments the node-update phase reads: an input array of the phase is
    never written, and a buffer that is no array of the phase is left alone. -/
theorem Vmid_main_arg0 (c : Dev nD) : Vmid m c main_arg0 = m ((c : Thread nD τ).loc main_arg0) :=
  (Wmid_arr m c 2).trans (((dat0 (Vin m) c).arrAt_in 2 rfl _).trans (A_eq0 (Vin m) c 2))
theorem Vmid_main_arg1 (c : Dev nD) : Vmid m c main_arg1 = m ((c : Thread nD τ).loc main_arg1) :=
  (Wmid_arr m c 0).trans (((dat0 (Vin m) c).arrAt_in 0 rfl _).trans (A_eq0 (Vin m) c 0))
theorem Vmid_main_arg2 (c : Dev nD) : Vmid m c main_arg2 = m ((c : Thread nD τ).loc main_arg2) :=
  (Wmid_arr m c 1).trans (((dat0 (Vin m) c).arrAt_in 1 rfl _).trans (A_eq0 (Vin m) c 1))
theorem Vmid_main_arg3 (c : Dev nD) : Vmid m c main_arg3 = m ((c : Thread nD τ).loc main_arg3) :=
  (Wmid_arr m c 3).trans (((dat0 (Vin m) c).arrAt_in 3 rfl _).trans (A_eq0 (Vin m) c 3))
theorem Vmid_main_arg4 (c : Dev nD) : Vmid m c main_arg4 = m ((c : Thread nD τ).loc main_arg4) :=
  (Wmid_arr m c 4).trans (((dat0 (Vin m) c).arrAt_in 4 rfl _).trans (A_eq0 (Vin m) c 4))
theorem Vmid_main_arg5 (c : Dev nD) : Vmid m c main_arg5 = m ((c : Thread nD τ).loc main_arg5) :=
  (Wmid_arr m c 5).trans (((dat0 (Vin m) c).arrAt_in 5 rfl _).trans (A_eq0 (Vin m) c 5))
theorem Vmid_main_arg6 (c : Dev nD) : Vmid m c main_arg6 = m ((c : Thread nD τ).loc main_arg6) :=
  (Wmid_arr m c 6).trans (((dat0 (Vin m) c).arrAt_in 6 rfl _).trans (A_eq0 (Vin m) c 6))
theorem Vmid_main_arg7 (c : Dev nD) : Vmid m c main_arg7 = m ((c : Thread nD τ).loc main_arg7) :=
  Wmid_of_ne m c main_arg7 (by decide)
theorem Vmid_main_arg8 (c : Dev nD) : Vmid m c main_arg8 = m ((c : Thread nD τ).loc main_arg8) :=
  Wmid_of_ne m c main_arg8 (by decide)
theorem Vmid_main_arg9 (c : Dev nD) : Vmid m c main_arg9 = m ((c : Thread nD τ).loc main_arg9) :=
  Wmid_of_ne m c main_arg9 (by decide)
theorem Vmid_main_arg10 (c : Dev nD) : Vmid m c main_arg10 = m ((c : Thread nD τ).loc main_arg10) :=
  Wmid_of_ne m c main_arg10 (by decide)
theorem Vmid_main_arg11 (c : Dev nD) : Vmid m c main_arg11 = m ((c : Thread nD τ).loc main_arg11) :=
  Wmid_of_ne m c main_arg11 (by decide)
theorem Vmid_main_arg12 (c : Dev nD) : Vmid m c main_arg12 = m ((c : Thread nD τ).loc main_arg12) :=
  Wmid_of_ne m c main_arg12 (by decide)

/-- After the node-update phase: its arrays at what its write-back leaves, every other buffer as before it. -/
def Wend (c : Dev nD) : Valuation τ sig (Elt F) :=
  Pipeline.withArrays spec1 c (Wmid m c) fun w => (dat1 (Vmid m) c).arrAt w cfg1.N

theorem Wend_arr (c : Dev nD) (w : Fin cfg1.W) :
    Wend m c (Proc.devRef .tc (Pipeline.arrRef spec1 w)) = (dat1 (Vmid m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m c (Proc.devRef .tc b) = Wmid m c (Proc.devRef .tc b) := by
  unfold Wend; exact Pipeline.withArrays_of_ne spec1 c _ _ b hb

abbrev Vend : (c : Dev nD) → (b : Ref sig .tc) → Buf (Elt F) ((c : Thread nD τ).loc b) := fun c b => Wend m c b

theorem hF1 (c : Dev nD) (w : Fin cfg1.W) : (dat1 (Vmid m) c).arrAt w cfg1.N = Vend m c (Pipeline.arrRef spec1 w) :=
  (Wend_arr m c w).symm
theorem hrest1 (c : Dev nD) : ∀ b, b ∉ Finset.univ.image (Pipeline.arrRef spec1) → Vend m c b = Vmid m c b :=
  fun b hb => Wend_of_ne m c b fun w e => hb (Finset.mem_image.mpr ⟨w, Finset.mem_univ _, e⟩)

/-- The result array at the end is what the node-update phase's write-back leaves in it. -/
theorem Wend_main_v1 (c : Dev nD) : Wend m c (Proc.devRef .tc main_v1) = (dat1 (Vmid m) c).arrAt 8 cfg1.N := Wend_arr m c 8

/-! Every argument ends as launched: the node-update phase writes none, and neither did the edge phase. -/
theorem Wend_main_arg0 (c : Dev nD) : Wend m c (Proc.devRef .tc main_arg0) = m ((c : Thread nD τ).loc main_arg0) :=
  ((Wend_arr m c 1).trans (((dat1 (Vmid m) c).arrAt_in 1 rfl _).trans (A_eq1 (Vmid m) c 1))).trans (Vmid_main_arg0 m c)
theorem Wend_main_arg1 (c : Dev nD) : Wend m c (Proc.devRef .tc main_arg1) = m ((c : Thread nD τ).loc main_arg1) :=
  (Wend_of_ne m c main_arg1 (by decide)).trans (Vmid_main_arg1 m c)
theorem Wend_main_arg2 (c : Dev nD) : Wend m c (Proc.devRef .tc main_arg2) = m ((c : Thread nD τ).loc main_arg2) :=
  (Wend_of_ne m c main_arg2 (by decide)).trans (Vmid_main_arg2 m c)
theorem Wend_main_arg3 (c : Dev nD) : Wend m c (Proc.devRef .tc main_arg3) = m ((c : Thread nD τ).loc main_arg3) :=
  (Wend_of_ne m c main_arg3 (by decide)).trans (Vmid_main_arg3 m c)
theorem Wend_main_arg4 (c : Dev nD) : Wend m c (Proc.devRef .tc main_arg4) = m ((c : Thread nD τ).loc main_arg4) :=
  (Wend_of_ne m c main_arg4 (by decide)).trans (Vmid_main_arg4 m c)
theorem Wend_main_arg5 (c : Dev nD) : Wend m c (Proc.devRef .tc main_arg5) = m ((c : Thread nD τ).loc main_arg5) :=
  (Wend_of_ne m c main_arg5 (by decide)).trans (Vmid_main_arg5 m c)
theorem Wend_main_arg6 (c : Dev nD) : Wend m c (Proc.devRef .tc main_arg6) = m ((c : Thread nD τ).loc main_arg6) :=
  (Wend_of_ne m c main_arg6 (by decide)).trans (Vmid_main_arg6 m c)
theorem Wend_main_arg7 (c : Dev nD) : Wend m c (Proc.devRef .tc main_arg7) = m ((c : Thread nD τ).loc main_arg7) :=
  ((Wend_arr m c 2).trans (((dat1 (Vmid m) c).arrAt_in 2 rfl _).trans (A_eq1 (Vmid m) c 2))).trans (Vmid_main_arg7 m c)
theorem Wend_main_arg8 (c : Dev nD) : Wend m c (Proc.devRef .tc main_arg8) = m ((c : Thread nD τ).loc main_arg8) :=
  ((Wend_arr m c 3).trans (((dat1 (Vmid m) c).arrAt_in 3 rfl _).trans (A_eq1 (Vmid m) c 3))).trans (Vmid_main_arg8 m c)
theorem Wend_main_arg9 (c : Dev nD) : Wend m c (Proc.devRef .tc main_arg9) = m ((c : Thread nD τ).loc main_arg9) :=
  ((Wend_arr m c 4).trans (((dat1 (Vmid m) c).arrAt_in 4 rfl _).trans (A_eq1 (Vmid m) c 4))).trans (Vmid_main_arg9 m c)
theorem Wend_main_arg10 (c : Dev nD) : Wend m c (Proc.devRef .tc main_arg10) = m ((c : Thread nD τ).loc main_arg10) :=
  ((Wend_arr m c 5).trans (((dat1 (Vmid m) c).arrAt_in 5 rfl _).trans (A_eq1 (Vmid m) c 5))).trans (Vmid_main_arg10 m c)
theorem Wend_main_arg11 (c : Dev nD) : Wend m c (Proc.devRef .tc main_arg11) = m ((c : Thread nD τ).loc main_arg11) :=
  ((Wend_arr m c 6).trans (((dat1 (Vmid m) c).arrAt_in 6 rfl _).trans (A_eq1 (Vmid m) c 6))).trans (Vmid_main_arg11 m c)
theorem Wend_main_arg12 (c : Dev nD) : Wend m c (Proc.devRef .tc main_arg12) = m ((c : Thread nD τ).loc main_arg12) :=
  ((Wend_arr m c 7).trans (((dat1 (Vmid m) c).arrAt_in 7 rfl _).trans (A_eq1 (Vmid m) c 7))).trans (Vmid_main_arg12 m c)

/-! ## The proof data family and the thread state -/

/-- The prefetched tables' admissible contents: neither phase has a table. -/
abbrev adm : (p : Fin 2) → (pcfgs (F := F) p).Adm := fun p => (cfgs p).toPCfg_adm
/-- Both phases' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wend m c) ∗ ∃ r, prngReg c r)

/-! ## The regions as segments -/

set_option backward.isDefEq.respectTransparency.types false in
/-- The edge phase over the thread state: entered from every unscoped buffer as launched, left at `Wmid`. Its
    arrays split out of the unscoped buffers and are put back at the exit contents; the generator register and the
    scoped buffers outside the pipeline's enter the phase's own invariant through the class invariant and leave it
    the same way; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ L lv 0 fun _ _ => rfl
  pre c := iprop(StableHlo.held (c : Thread nD τ) (Pipeline.ucRefs τ sig) (fun b => m (c, b)) ∗ R c)
  post c := iprop(StableHlo.held (c : Thread nD τ) (Pipeline.ucRefs τ sig) (Wmid m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held c (fun b => m (c, b))] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin m) c)
    unfold Pipeline.ΦA
    iintro ⟨Hp, -, Hr⟩
    isplitl [Hr]; · iexact Hr
    iexact Hp
  hout c := by
    rw [Pipeline.ownSems0_none]
    refine BIBase.Entails.trans (hout0 (Vin m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vmid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node-update phase over the thread state: entered from every unscoped buffer at `Wmid`, left at `Wend`.
    Its arrays split out of the unscoped buffers and are put back at the exit contents; the generator register into
    the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m) c).loose
  hwaits := Pipeline.hwaits_of_owed_zero _ _ _ _ L lv 1 fun _ _ => rfl
  pre c := iprop(StableHlo.held (c : Thread nD τ) (Pipeline.ucRefs τ sig) (Wmid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main is the run of the two regions. -/
theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of @main on the TensorCores terminates, nothing
    faulting, and every final memory has the result array at what the node-update phase's write-back leaves from the
    contents after the edge phase, and every argument array as launched: the last thread state read against the
    final state. -/
theorem run_named : θ_run defs (onTc (τ := τ) (main (F := F))) ⟨m, fun _ => 0, ρ⟩ (fun r => ∀ c : Dev nD,
      r.2.mem ((c.tc : Thread nD τ).loc main_v1) = (dat1 (Vmid m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c =>
      ⟨(h c _ (mem_uc main_v1 (by decide))).trans (Wend_main_v1 m c),
        (h c _ (mem_uc main_arg0 (by decide))).trans (Wend_main_arg0 m c),
        (h c _ (mem_uc main_arg1 (by decide))).trans (Wend_main_arg1 m c),
        (h c _ (mem_uc main_arg2 (by decide))).trans (Wend_main_arg2 m c),
        (h c _ (mem_uc main_arg3 (by decide))).trans (Wend_main_arg3 m c),
        (h c _ (mem_uc main_arg4 (by decide))).trans (Wend_main_arg4 m c),
        (h c _ (mem_uc main_arg5 (by decide))).trans (Wend_main_arg5 m c),
        (h c _ (mem_uc main_arg6 (by decide))).trans (Wend_main_arg6 m c),
        (h c _ (mem_uc main_arg7 (by decide))).trans (Wend_main_arg7 m c),
        (h c _ (mem_uc main_arg8 (by decide))).trans (Wend_main_arg8 m c),
        (h c _ (mem_uc main_arg9 (by decide))).trans (Wend_main_arg9 m c),
        (h c _ (mem_uc main_arg10 (by decide))).trans (Wend_main_arg10 m c),
        (h c _ (mem_uc main_arg11 (by decide))).trans (Wend_main_arg11 m c),
        (h c _ (mem_uc main_arg12 (by decide))).trans (Wend_main_arg12 m c)⟩)

end Cert.KernelIdeal.Hand

end
-- ==== Proof.KStruct.lean ====
/-
  The two regions' blocks and results as plain functions of the entry contents.
  Edge phase: the two incidence windows' block at point t is rows [1024·t, 1024·t + 1024) of its matrix, the
  other five input windows' block is their whole array; the result array's half h ends at the accumulator
  after the last point of that half, 16·h + 15.
  Node-update phase: every window's block is its whole array, and the result array ends at the body's term
  of the eight input arrays.
-/
import proofs.«157347_j10196252360963_1_alg».proof.Proof.Data0
import proofs.«157347_j10196252360963_1_alg».proof.Proof.Data1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-- The incidence windows' block index at point t is (t, 0). -/
theorem idx0_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first incidence window's block at point t is rows [1024·t, 1024·t + 1024) of its matrix. -/
theorem iblk0_0_apply (c : Dev nD) (t : Fin cfg0.N) (e : Fin 1024) (n : Fin 2048) :
    iblk0 V c 0 t (ix2 e n) = V c main_arg1 (ix2 (⟨1024 * t.val + e.val, by have h : t.val < grid0.N := t.isLt; have := Gen.N_0; omega⟩ : Fin 32768) n) := by
  obtain ⟨h0, h1, -, -⟩ := idx0_rows t
  unfold iblk0
  rw [View.read_apply]
  show V c main_arg1 _ = V c main_arg1 _
  congr 1
  funext a
  apply Fin.ext
  match a with
  | ⟨0, _⟩ => show win0_0.index t 0 * 1024 + 1 * e.val = 1024 * t.val + e.val; rw [h0]; omega
  | ⟨1, _⟩ => show win0_0.index t 1 * 2048 + 1 * n.val = n.val; rw [h1]; omega

/-- Likewise the second incidence window's. -/
theorem iblk0_1_apply (c : Dev nD) (t : Fin cfg0.N) (e : Fin 1024) (n : Fin 2048) :
    iblk0 V c 1 t (ix2 e n) = V c main_arg2 (ix2 (⟨1024 * t.val + e.val, by have h : t.val < grid0.N := t.isLt; have := Gen.N_0; omega⟩ : Fin 32768) n) := by
  obtain ⟨-, -, h0, h1⟩ := idx0_rows t
  unfold iblk0
  rw [View.read_apply]
  show V c main_arg2 _ = V c main_arg2 _
  congr 1
  funext a
  apply Fin.ext
  match a with
  | ⟨0, _⟩ => show win0_1.index t 0 * 1024 + 1 * e.val = 1024 * t.val + e.val; rw [h0]; omega
  | ⟨1, _⟩ => show win0_1.index t 1 * 2048 + 1 * n.val = n.val; rw [h1]; omega

/-- The whole-array windows' block index is zero on every axis at every point. -/
theorem idx0_whole : ∀ t : Fin cfg0.N, (fun a => win0_2.index t a * S2048x256.size a) = (fun _ => 0)
    ∧ (fun a => win0_3.index t a * S512x512.size a) = (fun _ => 0)
    ∧ (fun a => win0_4.index t a * S512.size a) = (fun _ => 0)
    ∧ (fun a => win0_5.index t a * S256x512.size a) = (fun _ => 0)
    ∧ (fun a => win0_6.index t a * S256.size a) = (fun _ => 0) :=
  (by decide +kernel : ∀ t : Fin grid0.N, _)

/-- The node-feature window's block, and each weight window's below, is its whole array. -/
theorem iblk0_2 (c : Dev nD) (t : Fin cfg0.N) : iblk0 V c 2 t = V c main_arg0 := by
  obtain ⟨h, -, -, -, -⟩ := idx0_whole t
  exact Memref.read_access_unit_zero (Elt F) main_arg0 h (fun a => by rw [congrFun h a]; simp) (V c main_arg0)

theorem iblk0_3 (c : Dev nD) (t : Fin cfg0.N) : iblk0 V c 3 t = V c main_arg3 := by
  obtain ⟨-, h, -, -, -⟩ := idx0_whole t
  exact Memref.read_access_unit_zero (Elt F) main_arg3 h (fun a => by rw [congrFun h a]; simp) (V c main_arg3)

theorem iblk0_4 (c : Dev nD) (t : Fin cfg0.N) : iblk0 V c 4 t = V c main_arg4 := by
  obtain ⟨-, -, h, -, -⟩ := idx0_whole t
  exact Memref.read_access_unit_zero (Elt F) main_arg4 h (fun a => by rw [congrFun h a]; simp) (V c main_arg4)

theorem iblk0_5 (c : Dev nD) (t : Fin cfg0.N) : iblk0 V c 5 t = V c main_arg5 := by
  obtain ⟨-, -, -, h, -⟩ := idx0_whole t
  exact Memref.read_access_unit_zero (Elt F) main_arg5 h (fun a => by rw [congrFun h a]; simp) (V c main_arg5)

theorem iblk0_6 (c : Dev nD) (t : Fin cfg0.N) : iblk0 V c 6 t = V c main_arg6 := by
  obtain ⟨-, -, -, -, h⟩ := idx0_whole t
  exact Memref.read_access_unit_zero (Elt F) main_arg6 h (fun a => by rw [congrFun h a]; simp) (V c main_arg6)

/-- The node-update phase's windows' block index is zero on every axis at its one point. -/
theorem idx1_whole : ∀ t : Fin cfg1.N, (fun a => win1_0.index t a * S2x2048x256.size a) = (fun _ => 0)
    ∧ (fun a => win1_1.index t a * S2048x256.size a) = (fun _ => 0)
    ∧ (fun a => win1_2.index t a * S512x512.size a) = (fun _ => 0)
    ∧ (fun a => win1_3.index t a * S512.size a) = (fun _ => 0)
    ∧ (fun a => win1_4.index t a * S512x512.size a) = (fun _ => 0)
    ∧ (fun a => win1_5.index t a * S512.size a) = (fun _ => 0)
    ∧ (fun a => win1_6.index t a * S256x512.size a) = (fun _ => 0)
    ∧ (fun a => win1_7.index t a * S256.size a) = (fun _ => 0)
    ∧ (fun a => win1_8.index t a * S2048x256.size a) = (fun _ => 0) :=
  (by decide +kernel : ∀ t : Fin grid1.N, _)

/-- Each window's block is its whole array. -/
theorem iblk1_0 (c : Dev nD) (t : Fin cfg1.N) : iblk1 V c 0 t = V c main_v0 := by
  obtain ⟨h, -, -, -, -, -, -, -, -⟩ := idx1_whole t
  exact Memref.read_access_unit_zero (Elt F) main_v0 h (fun a => by rw [congrFun h a]; simp) (V c main_v0)

theorem iblk1_1 (c : Dev nD) (t : Fin cfg1.N) : iblk1 V c 1 t = V c main_arg0 := by
  obtain ⟨-, h, -, -, -, -, -, -, -⟩ := idx1_whole t
  exact Memref.read_access_unit_zero (Elt F) main_arg0 h (fun a => by rw [congrFun h a]; simp) (V c main_arg0)

theorem iblk1_2 (c : Dev nD) (t : Fin cfg1.N) : iblk1 V c 2 t = V c main_arg7 := by
  obtain ⟨-, -, h, -, -, -, -, -, -⟩ := idx1_whole t
  exact Memref.read_access_unit_zero (Elt F) main_arg7 h (fun a => by rw [congrFun h a]; simp) (V c main_arg7)

theorem iblk1_3 (c : Dev nD) (t : Fin cfg1.N) : iblk1 V c 3 t = V c main_arg8 := by
  obtain ⟨-, -, -, h, -, -, -, -, -⟩ := idx1_whole t
  exact Memref.read_access_unit_zero (Elt F) main_arg8 h (fun a => by rw [congrFun h a]; simp) (V c main_arg8)

theorem iblk1_4 (c : Dev nD) (t : Fin cfg1.N) : iblk1 V c 4 t = V c main_arg9 := by
  obtain ⟨-, -, -, -, h, -, -, -, -⟩ := idx1_whole t
  exact Memref.read_access_unit_zero (Elt F) main_arg9 h (fun a => by rw [congrFun h a]; simp) (V c main_arg9)

theorem iblk1_5 (c : Dev nD) (t : Fin cfg1.N) : iblk1 V c 5 t = V c main_arg10 := by
  obtain ⟨-, -, -, -, -, h, -, -, -⟩ := idx1_whole t
  exact Memref.read_access_unit_zero (Elt F) main_arg10 h (fun a => by rw [congrFun h a]; simp) (V c main_arg10)

theorem iblk1_6 (c : Dev nD) (t : Fin cfg1.N) : iblk1 V c 6 t = V c main_arg11 := by
  obtain ⟨-, -, -, -, -, -, h, -, -⟩ := idx1_whole t
  exact Memref.read_access_unit_zero (Elt F) main_arg11 h (fun a => by rw [congrFun h a]; simp) (V c main_arg11)

theorem iblk1_7 (c : Dev nD) (t : Fin cfg1.N) : iblk1 V c 7 t = V c main_arg12 := by
  obtain ⟨-, -, -, -, -, -, -, h, -⟩ := idx1_whole t
  exact Memref.read_access_unit_zero (Elt F) main_arg12 h (fun a => by rw [congrFun h a]; simp) (V c main_arg12)

/-! ## The node-update phase's result array -/

/-- The result window's block at the one point is the whole array, not cut. -/
theorem ext1_out : ∀ t : Fin cfg1.N, win1_8.xsize (grid1.coords t) (0 : Fin 2) = 2048 ∧ win1_8.xsize (grid1.coords t) (1 : Fin 2) = 256 :=
  (by decide +kernel : ∀ t : Fin grid1.N, _)

/-- The one point's write-back covers the result array, which so ends at the body's term of the eight input arrays. -/
theorem arr1_final (c : Dev nD) : (dat1 V c).arrAt 8 cfg1.N = out1 (V c main_v0) (V c main_arg0) (V c main_arg7) (V c main_arg8) (V c main_arg9) (V c main_arg10) (V c main_arg11) (V c main_arg12) := by
  refine (dat1 V c).arrAt_eq_of_cover 8 _ (fun t _ => ?_) (fun i => ⟨Gen.t1_0, Gen.flush1_8 _, ?_⟩)
  · obtain ⟨-, -, -, -, -, -, -, -, h⟩ := idx1_whole t
    show (cfg1.win 8).cut (grid1.coords t) ((dat1 V c).after 8 t) = _
    rw [after1_8, iblk1_0, iblk1_1, iblk1_2, iblk1_3, iblk1_4, iblk1_5, iblk1_6, iblk1_7]
    exact (Memref.read_access_unit_zero (Elt F) main_v1 h (fun a => by rw [congrFun h a]; simp) _).symm
  · obtain ⟨-, -, -, -, -, -, -, -, h⟩ := idx1_whole Gen.t1_0
    obtain ⟨x0, x1⟩ := ext1_out Gen.t1_0
    show i ∈ ((View.whole main_v1).slice (win1_8.rect Gen.t1_0)).set
    rw [View.set_slice_whole, Rect.mem_set_unit]
    intro a
    have h0 : (i 0 : Nat) < 2048 := (i 0).isLt
    have h1 : (i 1 : Nat) < 256 := (i 1).isLt
    match a with
    | ⟨0, _⟩ =>
      show win1_8.index Gen.t1_0 0 * S2048x256.size 0 ≤ (i 0 : Nat) ∧ (i 0 : Nat) < win1_8.index Gen.t1_0 0 * S2048x256.size 0 + win1_8.xsize (grid1.coords Gen.t1_0) 0
      rw [show win1_8.index Gen.t1_0 0 * S2048x256.size 0 = 0 from congrFun h 0, x0]; omega
    | ⟨1, _⟩ =>
      show win1_8.index Gen.t1_0 1 * S2048x256.size 1 ≤ (i 1 : Nat) ∧ (i 1 : Nat) < win1_8.index Gen.t1_0 1 * S2048x256.size 1 + win1_8.xsize (grid1.coords Gen.t1_0) 1
      rw [show win1_8.index Gen.t1_0 1 * S2048x256.size 1 = 0 from congrFun h 1, x1]; omega

/-! ## The edge phase's result array -/

/-- The result window's block index at point t is (t / 16, 0, 0), and its block is not cut. -/
theorem idx0_out : ∀ t : Fin cfg0.N, win0_7.index t (0 : Fin 3) = t.val / 16 ∧ win0_7.index t (1 : Fin 3) = 0 ∧ win0_7.index t (2 : Fin 3) = 0
    ∧ win0_7.xsize (grid0.coords t) (0 : Fin 3) = 1 ∧ win0_7.xsize (grid0.coords t) (1 : Fin 3) = 2048 ∧ win0_7.xsize (grid0.coords t) (2 : Fin 3) = 256 :=
  (by decide +kernel : ∀ t : Fin grid0.N, _)

/-- The body's copy of the accumulator into the output block adds a leading unit axis: entry (0, n, r) of the block is
    entry (n, r) of the accumulator (same row-major position). -/
theorem pay2_apply (x : Vec F S2048x256 .f32) (j : S1x2048x256.Idx) :
    k0_pay2 x j = x (ix2 (⟨(j 1).val, (j 1).isLt⟩ : Fin 2048) (⟨(j 2).val, (j 2).isLt⟩ : Fin 256)) := by
  unfold k0_pay2
  refine shapeCast_apply x _ j _ ?_
  rw [Shape.rowMajor_val_two, Shape.rowMajor_val_three]
  have h0 : (j 0).val < 1 := (j 0).isLt
  show (j 1).val * 256 + (j 2).val = ((j 0).val * 2048 + (j 1).val) * 256 + (j 2).val
  omega

/-- What the edge phase leaves in its result array: half h holds the accumulator after the half's last point 16·h + 15. -/
def res0 (c : Dev nD) : Vec F S2x2048x256 .f32 := fun i =>
  accAt0 V c (16 * (i 0).val + 15) (by have h : (i 0).val < 2 := (i 0).isLt; have := Gen.N_0; show _ < grid0.N; omega)
    (ix2 (⟨(i 1).val, (i 1).isLt⟩ : Fin 2048) (⟨(i 2).val, (i 2).isLt⟩ : Fin 256))

/-- The accumulator depends on the point's number only, not on the proof of its bound. -/
theorem accAt0_congr (c : Dev nD) (n n' : ℕ) (hn : n < cfg0.N) (hn' : n' < cfg0.N) (e : n = n') :
    accAt0 V c n hn = accAt0 V c n' hn' := by
  subst e; rfl

/-- At a point t ≡ 15 mod 16 the output block the body leaves, read at (0, n, r), is `res0` read at (t / 16, n, r). -/
theorem out0_blk (c : Dev nD) (t : Fin cfg0.N) (h15 : t.val % 16 = 15) (j : S1x2048x256.Idx) (i : S2x2048x256.Idx)
    (hi0 : (i 0).val = t.val / 16) (hi1 : (i 1).val = (j 1).val) (hi2 : (i 2).val = (j 2).val) :
    outAt0 V c t.val t.isLt j = res0 V c i := by
  unfold outAt0
  rw [pay2_apply]
  unfold res0
  rw [accAt0_congr V c (16 * (i 0).val + 15) t.val _ t.isLt (by rw [hi0]; omega)]
  congr 1
  funext a
  apply Fin.ext
  match a with
  | ⟨0, _⟩ => exact hi1.symm
  | ⟨1, _⟩ => exact hi2.symm

/-- A point t ≡ 15 mod 16 writes back block t / 16 of `res0`. -/
theorem flushed0_7 (c : Dev nD) (t : Fin cfg0.N) (hf : (cfg0.win 7).flush t = true) :
    (dat0 V c).flushed 7 t = ((cfg0.win 7).blk t).view.read (Elt F) (res0 V c) := by
  have h15 : t.val % 16 = 15 := (Gen.flush0_7 t).mp hf
  obtain ⟨e0, e1, e2, x0, -, -⟩ := idx0_out t
  show (cfg0.win 7).cut (grid0.coords t) ((dat0 V c).after 7 t) = _
  rw [after0_7]
  funext j
  rw [View.read_apply]
  have hj0 : (j 0).val < 1 := Nat.lt_of_lt_of_eq (j 0).isLt x0
  refine out0_blk V c t h15 _ _ ?_ ?_ ?_
  · show win0_7.index t 0 * 1 + 1 * (j 0).val = t.val / 16
    rw [e0]; omega
  · show win0_7.index t 1 * 2048 + 1 * (j 1).val = (j 1).val
    rw [e1]; omega
  · show win0_7.index t 2 * 256 + 1 * (j 2).val = (j 2).val
    rw [e2]; omega

/-- Half h of the result array ends at the accumulator after the half's last point: point 16·h + 15 writes block h
    back, and every write-back of that block writes the same contents. -/
theorem arr0_final (c : Dev nD) (h : Fin 2) (n : Fin 2048) (r : Fin 256) :
    (dat0 V c).arrAt 7 cfg0.N (ix3 h n r) = accAt0 V c (16 * h.val + 15) (by have := Gen.N_0; have := h.isLt; show _ < grid0.N; omega) (ix2 n r) := by
  have hN := Gen.N_0
  have hh := h.isLt
  have ht : 16 * h.val + 15 < cfg0.N := by show _ < grid0.N; omega
  have hf : (cfg0.win 7).flush ⟨16 * h.val + 15, ht⟩ = true := (Gen.flush0_7 ⟨16 * h.val + 15, ht⟩).mpr (by show (16 * h.val + 15) % 16 = 15; omega)
  obtain ⟨e0, e1, e2, x0, x1, x2⟩ := idx0_out ⟨16 * h.val + 15, ht⟩
  refine ((dat0 V c).arrAt_apply_of_mem 7 (res0 V c) (flushed0_7 V c) cfg0.N ⟨16 * h.val + 15, ht⟩ (ix3 h n r) ht hf ?_).trans rfl
  show ix3 h n r ∈ ((View.whole main_v0).slice (win0_7.rect ⟨16 * h.val + 15, ht⟩)).set
  rw [View.set_slice_whole, Rect.mem_set_unit]
  intro a
  have hn := n.isLt
  have hr := r.isLt
  match a with
  | ⟨0, _⟩ =>
    show win0_7.index ⟨16 * h.val + 15, ht⟩ 0 * 1 ≤ h.val ∧ h.val < win0_7.index ⟨16 * h.val + 15, ht⟩ 0 * 1 + win0_7.xsize (grid0.coords ⟨16 * h.val + 15, ht⟩) 0
    rw [e0, x0]; show (16 * h.val + 15) / 16 * 1 ≤ h.val ∧ h.val < (16 * h.val + 15) / 16 * 1 + 1; omega
  | ⟨1, _⟩ =>
    show win0_7.index ⟨16 * h.val + 15, ht⟩ 1 * 2048 ≤ n.val ∧ n.val < win0_7.index ⟨16 * h.val + 15, ht⟩ 1 * 2048 + win0_7.xsize (grid0.coords ⟨16 * h.val + 15, ht⟩) 1
    rw [e1, x1]; omega
  | ⟨2, _⟩ =>
    show win0_7.index ⟨16 * h.val + 15, ht⟩ 2 * 256 ≤ r.val ∧ r.val < win0_7.index ⟨16 * h.val + 15, ht⟩ 2 * 256 + win0_7.xsize (grid0.coords ⟨16 * h.val + 15, ht⟩) 2
    rw [e2, x2]; omega

end Cert.KernelIdeal.Hand

end
-- ==== Proof.Spec.lean ====
/-
  The edge phase as plain arithmetic on the extended reals, one incidence row at a time.
  For an edge with receiver row `a` and sender row `s` (rows of the two incidence matrices, over the 2048
  nodes): `gath` gathers the node features along a row; `pre` joins the sender's and the receiver's
  gathered features (512 channels: sender first); `hid` and `msg` are the two layers of the message
  MLP (a product with the transposed weight, the bias, then max with 0). The aggregate at node `n`,
  channel `r` is the sum over the edges `e` of rel_rec[e, n] · msg(e)[r] (`aggOver`, over an incidence pair of any
  number of rows: all 32768 edges, or the 1024 edges of one tile, `tileOf`). That the whole sum is the sum of the
  32 tiles' is all the kernel's tiling and the reference's single product differ by.
-/
import Idealize.ShloMosaic.PureOps.Ideal
import Idealize.ShloMosaic.Lib.ValueIdx

noncomputable section

namespace Cert.Spec

open Idealize.ShloMosaic Idealize.ShloMosaic.ValueIdx

/-- A matrix and a vector of extended reals over literal extents. -/
abbrev Mat (a b : ℕ) : Type := (⟨2, ![a, b]⟩ : Shape).Idx → EReal
abbrev Vct (a : ℕ) : Type := (⟨1, ![a]⟩ : Shape).Idx → EReal

variable (x : Mat 2048 256) (w1 : Mat 512 512) (b1 : Vct 512) (w2 : Mat 256 512) (b2 : Vct 256)

/-- The node features gathered along one incidence row. -/
def gath (row : Fin 2048 → EReal) (k : Fin 256) : EReal := ∑ n : Fin 2048, row n * x (ix2 n k)

/-- The message MLP's input for one edge: the sender's gathered features, then the receiver's. -/
def pre (a s : Fin 2048 → EReal) (q : Fin 512) : EReal :=
  if h : q.val < 256 then gath x s ⟨q.val, h⟩ else gath x a ⟨q.val - 256, by omega⟩

/-- Its hidden layer. -/
def hid (a s : Fin 2048 → EReal) (p : Fin 512) : EReal :=
  max ((∑ q : Fin 512, pre x a s q * w1 (ix2 p q)) + b1 (ix1 p)) 0

/-- The edge's message. -/
def msg (a s : Fin 2048 → EReal) (r : Fin 256) : EReal :=
  max ((∑ p : Fin 512, hid x w1 b1 a s p * w2 (ix2 r p)) + b2 (ix1 r)) 0

/-- Row `e` of an incidence matrix with `E` rows. -/
abbrev rowOf {E : ℕ} (A : Mat E 2048) (e : Fin E) : Fin 2048 → EReal := fun n => A (ix2 e n)

/-- The aggregate over the edges of an incidence pair with `E` rows: at node `n` and channel `r`. -/
def aggOver {E : ℕ} (A B : Mat E 2048) (n : Fin 2048) (r : Fin 256) : EReal :=
  ∑ e : Fin E, A (ix2 e n) * msg x w1 b1 w2 b2 (rowOf A e) (rowOf B e) r

/-- Tile `t` (1024 consecutive rows) of a 32768-row matrix. -/
def tileOf (A : Mat 32768 2048) (t : Fin 32) : Mat 1024 2048 :=
  fun j => A (ix2 (⟨1024 * t.val + (j 0).val, by have := (j 0).isLt; have := t.isLt; simp only [Matrix.cons_val_zero] at *; omega⟩ : Fin 32768) (⟨(j 1).val, (j 1).isLt⟩ : Fin 2048))

end Cert.Spec

end
-- ==== Proof.KEdge.lean ====
import proofs.«157347_j10196252360963_1_alg».proof.Proof.Gen.KernelIdeal.Skeleton
import proofs.«157347_j10196252360963_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.KEdge

open Idealize.ShloMosaic Idealize.ShloMosaic.ValueIdx Cert.KernelIdeal Cert.KernelIdeal.Gen

/-! ### The gathering product: incidence rows (edges × nodes) times node features (nodes × channels) -/

theorem gat_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem gat_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem gat_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem gat_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

theorem gat_mm (L : FVec Ideal S1024x2048 .bf16) (R : FVec Ideal S2048x256 .bf16) (a : Fin 1024) (b : Fin 256) :
    matmul dot_S1024x2048_S2048x256_S1024x256_1_0_0_1_n_n none L R (constant (F := Ideal) S1024x256 .f32 0x00000000#32) (ix2 a b)
      = ∑ k : Fin 2048, L (ix2 a k) * R (ix2 k b) := by
  refine (Ideal.matmul_constant_zero_apply dot_S1024x2048_S2048x256_S1024x256_1_0_0_1_n_n none L R (ix2 a b)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 a b) ((ValueIdx.contrEquiv1 dot_S1024x2048_S2048x256_S1024x256_1_0_0_1_n_n 2048 rfl rfl).symm k) = ix2 a k := funext fun c => Fin.ext (by
    match c with
    | ⟨0, _⟩ => exact gat_lhs_0 _ _
    | ⟨1, _⟩ => exact (gat_lhs_1 _ _).trans hk)
  have er : dot_S1024x2048_S2048x256_S1024x256_1_0_0_1_n_n.rhsIdx (ix2 a b) ((ValueIdx.contrEquiv1 dot_S1024x2048_S2048x256_S1024x256_1_0_0_1_n_n 2048 rfl rfl).symm k) = ix2 k b := funext fun c => Fin.ext (by
    match c with
    | ⟨0, _⟩ => exact (gat_rhs_0 _ _).trans hk
    | ⟨1, _⟩ => exact gat_rhs_1 _ _)
  rw [el, er]

/-! ### The first layer's product: joined features (edges × 512) times the transposed weight (512 × 512) -/

theorem l1_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem l1_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem l1_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem l1_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem l1_mm (L : FVec Ideal S1024x512 .bf16) (R : FVec Ideal S512x512 .bf16) (a : Fin 1024) (b : Fin 512) :
    matmul dot_S1024x512_S512x512_S1024x512_1_0_0_1_n_n none L R (constant (F := Ideal) S1024x512 .f32 0x00000000#32) (ix2 a b)
      = ∑ k : Fin 512, L (ix2 a k) * R (ix2 k b) := by
  refine (Ideal.matmul_constant_zero_apply dot_S1024x512_S512x512_S1024x512_1_0_0_1_n_n none L R (ix2 a b)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 a b) ((ValueIdx.contrEquiv1 dot_S1024x512_S512x512_S1024x512_1_0_0_1_n_n 512 rfl rfl).symm k) = ix2 a k := funext fun c => Fin.ext (by
    match c with
    | ⟨0, _⟩ => exact l1_lhs_0 _ _
    | ⟨1, _⟩ => exact (l1_lhs_1 _ _).trans hk)
  have er : dot_S1024x512_S512x512_S1024x512_1_0_0_1_n_n.rhsIdx (ix2 a b) ((ValueIdx.contrEquiv1 dot_S1024x512_S512x512_S1024x512_1_0_0_1_n_n 512 rfl rfl).symm k) = ix2 k b := funext fun c => Fin.ext (by
    match c with
    | ⟨0, _⟩ => exact (l1_rhs_0 _ _).trans hk
    | ⟨1, _⟩ => exact l1_rhs_1 _ _)
  rw [el, er]

/-! ### The second layer's product: hidden features (edges × 512) times the transposed weight (512 × 256) -/

theorem l2_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem l2_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem l2_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem l2_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem l2_mm (L : FVec Ideal S1024x512 .bf16) (R : FVec Ideal S512x256 .bf16) (a : Fin 1024) (b : Fin 256) :
    matmul dot_S1024x512_S512x256_S1024x256_1_0_0_1_n_n none L R (constant (F := Ideal) S1024x256 .f32 0x00000000#32) (ix2 a b)
      = ∑ k : Fin 512, L (ix2 a k) * R (ix2 k b) := by
  refine (Ideal.matmul_constant_zero_apply dot_S1024x512_S512x256_S1024x256_1_0_0_1_n_n none L R (ix2 a b)).trans ?_
  rw [← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 a b) ((ValueIdx.contrEquiv1 dot_S1024x512_S512x256_S1024x256_1_0_0_1_n_n 512 rfl rfl).symm k) = ix2 a k := funext fun c => Fin.ext (by
    match c with
    | ⟨0, _⟩ => exact l2_lhs_0 _ _
    | ⟨1, _⟩ => exact (l2_lhs_1 _ _).trans hk)
  have er : dot_S1024x512_S512x256_S1024x256_1_0_0_1_n_n.rhsIdx (ix2 a b) ((ValueIdx.contrEquiv1 dot_S1024x512_S512x256_S1024x256_1_0_0_1_n_n 512 rfl rfl).symm k) = ix2 k b := funext fun c => Fin.ext (by
    match c with
    | ⟨0, _⟩ => exact (l2_rhs_0 _ _).trans hk
    | ⟨1, _⟩ => exact l2_rhs_1 _ _)
  rw [el, er]

/-! ### The aggregating product: both operands contract their edge axis (axis 0) -/

theorem agg_lhs_0 (i : S2048x256.Idx) (q : dot_S1024x2048_S1024x256_S2048x256_0_0_1_1_n_n.contr.Idx) :
    (dot_S1024x2048_S1024x256_S2048x256_0_0_1_1_n_n.lhsIdx i q 0).val = (q ⟨0, by decide⟩).val :=
  dot_S1024x2048_S1024x256_S2048x256_0_0_1_1_n_n.lhsIdx_val_of_single rfl i q
theorem agg_lhs_1 (i : S2048x256.Idx) (q : dot_S1024x2048_S1024x256_S2048x256_0_0_1_1_n_n.contr.Idx) :
    (dot_S1024x2048_S1024x256_S2048x256_0_0_1_1_n_n.lhsIdx i q 1).val = (i 0).val := by
  unfold DotDims.lhsIdx
  rw [dif_neg (show ¬(1 : Fin S1024x2048.rank) ∈ dot_S1024x2048_S1024x256_S2048x256_0_0_1_1_n_n.lhsBatch by decide), dif_pos (show (1 : Fin S1024x2048.rank) ∈ dot_S1024x2048_S1024x256_S2048x256_0_0_1_1_n_n.lhsNonContracting by decide)]
  rfl
theorem agg_rhs_0 (i : S2048x256.Idx) (q : dot_S1024x2048_S1024x256_S2048x256_0_0_1_1_n_n.contr.Idx) :
    (dot_S1024x2048_S1024x256_S2048x256_0_0_1_1_n_n.rhsIdx i q 0).val = (q ⟨0, by decide⟩).val :=
  dot_S1024x2048_S1024x256_S2048x256_0_0_1_1_n_n.rhsIdx_val_of_single rfl i q
theorem agg_rhs_1 (i : S2048x256.Idx) (q : dot_S1024x2048_S1024x256_S2048x256_0_0_1_1_n_n.contr.Idx) :
    (dot_S1024x2048_S1024x256_S2048x256_0_0_1_1_n_n.rhsIdx i q 1).val = (i 1).val := by
  unfold DotDims.rhsIdx
  rw [dif_neg (show ¬(1 : Fin S1024x256.rank) ∈ dot_S1024x2048_S1024x256_S2048x256_0_0_1_1_n_n.rhsBatch by decide), dif_pos (show (1 : Fin S1024x256.rank) ∈ dot_S1024x2048_S1024x256_S2048x256_0_0_1_1_n_n.rhsNonContracting by decide)]
  rfl

theorem agg_mm (L : FVec Ideal S1024x2048 .bf16) (R : FVec Ideal S1024x256 .bf16) (n : Fin 2048) (r : Fin 256) :
    matmul dot_S1024x2048_S1024x256_S2048x256_0_0_1_1_n_n none L R (constant (F := Ideal) S2048x256 .f32 0x00000000#32) (ix2 n r)
      = ∑ e : Fin 1024, L (ix2 e n) * R (ix2 e r) := by
  refine (Ideal.matmul_constant_zero_apply dot_S1024x2048_S1024x256_S2048x256_0_0_1_1_n_n none L R (ix2 n r)).trans ?_
  rw [← Equiv.sum_comp (ValueIdx.contrEquiv1 dot_S1024x2048_S1024x256_S2048x256_0_0_1_1_n_n 1024 rfl rfl).symm]
  refine Finset.sum_congr rfl fun e _ => ?_
  have hk := ValueIdx.contrEquiv1_symm_val dot_S1024x2048_S1024x256_S2048x256_0_0_1_1_n_n 1024 rfl rfl e
  have el : dot_S1024x2048_S1024x256_S2048x256_0_0_1_1_n_n.lhsIdx (ix2 n r) ((ValueIdx.contrEquiv1 dot_S1024x2048_S1024x256_S2048x256_0_0_1_1_n_n 1024 rfl rfl).symm e) = ix2 e n := funext fun c => Fin.ext (by
    match c with
    | ⟨0, _⟩ => exact (agg_lhs_0 _ _).trans hk
    | ⟨1, _⟩ => exact agg_lhs_1 _ _)
  have er : dot_S1024x2048_S1024x256_S2048x256_0_0_1_1_n_n.rhsIdx (ix2 n r) ((ValueIdx.contrEquiv1 dot_S1024x2048_S1024x256_S2048x256_0_0_1_1_n_n 1024 rfl rfl).symm e) = ix2 e r := funext fun c => Fin.ext (by
    match c with
    | ⟨0, _⟩ => exact (agg_rhs_0 _ _).trans hk
    | ⟨1, _⟩ => exact agg_rhs_1 _ _)
  rw [el, er]

/-! ## The layers, over variables -/

/-- A bias vector, cast to one row and spread over the edges, reads at (e, p) the vector's entry p. -/
theorem bias_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (e : Fin a) (p : Fin b) :
    broadcastTo ⟨2, ![a, b]⟩ (shapeCast ⟨2, ![1, b]⟩ v hc) hb (ix2 e p) = v (ix1 p) :=
  (broadcastTo_1b_ab_apply _ hb e p).trans (shapeCast_a_1a_apply v hc 0 p)

/-- The gathered features of one incidence tile: row e of the tile against column k of the node features. -/
theorem gather_apply (A : Vec Ideal S1024x2048 .f32) (X : Vec Ideal S2048x256 .f32) (hlt : FTy.bits .bf16 < FTy.bits .f32)
    (e : Fin 1024) (k : Fin 256) :
    matmul dot_S1024x2048_S2048x256_S1024x256_1_0_0_1_n_n none (truncf .bf16 A hlt) (truncf .bf16 X hlt) (constant (F := Ideal) S1024x256 .f32 0x00000000#32) (ix2 e k)
      = Cert.Spec.gath X (Cert.Spec.rowOf A e) k :=
  (gat_mm _ _ e k).trans (Finset.sum_congr rfl fun m _ => congrArg₂ (· * ·) (truncf_apply _ _ _) (truncf_apply _ _ _))

/-- Two 256-channel blocks joined along the channels: channels below 256 read the first, the others the second. -/
theorem join_apply (Gs Ga : FVec Ideal S1024x256 .f32) (h : Shape.Concatenates [S1024x256, S1024x256] S1024x512 1)
    (e : Fin 1024) (q : Fin 512) :
    concatenate S1024x512 1 [⟨S1024x256, Gs⟩, ⟨S1024x256, Ga⟩] h (ix2 e q)
      = if hq : q.val < 256 then Gs (ix2 e ⟨q.val, hq⟩) else Ga (ix2 e ⟨q.val - 256, by omega⟩) := by
  split
  · next hq =>
    exact concatenate_pair_apply_left 1 Gs Ga h (ix2 e q) rfl (ix2 e ⟨q.val, hq⟩)
      fun b => match b with | ⟨0, _⟩ => rfl | ⟨1, _⟩ => rfl
  · next hq =>
    exact concatenate_pair_apply_right 1 Gs Ga h (ix2 e q) rfl rfl (ix2 e ⟨q.val - 256, by omega⟩)
      (fun b hb => match b, hb with | ⟨0, _⟩, _ => rfl | ⟨1, _⟩, hb => absurd rfl hb)
      (by show (q.val - 256) + 256 = q.val; omega)

/-- The hidden layer: the product with the transposed weight, the bias row, then the maximum with zero. -/
theorem layer1_apply (P : FVec Ideal S1024x512 .bf16) (W : FVec Ideal S512x512 .bf16) (bv : FVec Ideal S512 .f32)
    (ht : S512x512.Transposes [1, 0] S512x512) (hc : S512.ShapeCasts S1x512) (hb : S1x512.Broadcasts S1024x512)
    (e : Fin 1024) (p : Fin 512) :
    maximumf (addf (matmul dot_S1024x512_S512x512_S1024x512_1_0_0_1_n_n none P (transpose S512x512 [1, 0] W ht) (constant (F := Ideal) S1024x512 .f32 0x00000000#32))
        (broadcastTo S1024x512 (shapeCast S1x512 bv hc) hb))
      (broadcast S1024x512 (Scalar.ofBits (F := Ideal) .f32 0x00000000#32)) (ix2 e p)
    = max ((∑ q : Fin 512, P (ix2 e q) * W (ix2 p q)) + bv (ix1 p)) 0 := by
  show max (matmul dot_S1024x512_S512x512_S1024x512_1_0_0_1_n_n none P (transpose S512x512 [1, 0] W ht) (constant (F := Ideal) S1024x512 .f32 0x00000000#32) (ix2 e p)
      + broadcastTo S1024x512 (shapeCast S1x512 bv hc) hb (ix2 e p)) (Ideal.ofBits .f32 0x00000000#32) = _
  rw [Ideal.ofBits_zero_f32, l1_mm, bias_apply]
  refine congrArg (fun z => max (z + bv (ix1 p)) 0) (Finset.sum_congr rfl fun q _ => ?_)
  rw [transpose_ix2_apply]

/-- The message layer, likewise, with the 256 × 512 weight. -/
theorem layer2_apply (H : FVec Ideal S1024x512 .bf16) (W : FVec Ideal S256x512 .bf16) (bv : FVec Ideal S256 .f32)
    (ht : S256x512.Transposes [1, 0] S512x256) (hc : S256.ShapeCasts S1x256) (hb : S1x256.Broadcasts S1024x256)
    (e : Fin 1024) (r : Fin 256) :
    maximumf (addf (matmul dot_S1024x512_S512x256_S1024x256_1_0_0_1_n_n none H (transpose S512x256 [1, 0] W ht) (constant (F := Ideal) S1024x256 .f32 0x00000000#32))
        (broadcastTo S1024x256 (shapeCast S1x256 bv hc) hb))
      (broadcast S1024x256 (Scalar.ofBits (F := Ideal) .f32 0x00000000#32)) (ix2 e r)
    = max ((∑ p : Fin 512, H (ix2 e p) * W (ix2 r p)) + bv (ix1 r)) 0 := by
  show max (matmul dot_S1024x512_S512x256_S1024x256_1_0_0_1_n_n none H (transpose S512x256 [1, 0] W ht) (constant (F := Ideal) S1024x256 .f32 0x00000000#32) (ix2 e r)
      + broadcastTo S1024x256 (shapeCast S1x256 bv hc) hb (ix2 e r)) (Ideal.ofBits .f32 0x00000000#32) = _
  rw [Ideal.ofBits_zero_f32, l2_mm, bias_apply]
  refine congrArg (fun z => max (z + bv (ix1 r)) 0) (Finset.sum_congr rfl fun p _ => ?_)
  rw [transpose_ix2_apply]

/-- Rounding to bf16 is the identity on the ideal values: a rounded vector reads what the vector reads. -/
theorem trunc_at {s : Shape} (a : FVec Ideal s .f32) (h : FTy.bits .bf16 < FTy.bits .f32) (i : s.Idx) (z : EReal)
    (hz : a i = z) : (truncf .bf16 a h : FVec Ideal s .bf16) i = z := hz

/-! ## The tile's payload -/

/-- The edge kernel's tile payload at node n and channel r is the aggregate over the tile's 1024 edges of
    rel_rec[e, n] times the edge's message at channel r. -/
theorem tile_apply (x0 x1 : Vec Ideal S1024x2048 .f32) (x2 : Vec Ideal S2048x256 .f32) (x3 : Vec Ideal S512x512 .f32)
    (x4 : Vec Ideal S512 .f32) (x5 : Vec Ideal S256x512 .f32) (x6 : Vec Ideal S256 .f32) (n : Fin 2048) (r : Fin 256) :
    k0_pay4 (F := Ideal) x0 x1 x2 x3 x4 x5 x6 (ix2 n r) = Cert.Spec.aggOver x2 x3 x4 x5 x6 x0 x1 n r := by
  unfold k0_pay4
  dsimp only
  refine (agg_mm _ _ n r).trans ?_
  unfold Cert.Spec.aggOver
  refine Finset.sum_congr rfl fun e _ => ?_
  refine congrArg₂ (· * ·) (trunc_at _ _ _ _ rfl) (trunc_at _ _ _ _ ?_)
  -- the message at (e, r)
  refine (layer2_apply _ _ _ _ _ _ e r).trans ?_
  unfold Cert.Spec.msg
  refine congrArg (fun z => max (z + x6 (ix1 r)) 0) (Finset.sum_congr rfl fun p _ => ?_)
  refine congrArg₂ (· * ·) (trunc_at _ _ _ _ ?_) (trunc_at _ _ _ _ rfl)
  -- the hidden layer at (e, p)
  refine (layer1_apply _ _ _ _ _ _ e p).trans ?_
  unfold Cert.Spec.hid
  refine congrArg (fun z => max (z + x4 (ix1 p)) 0) (Finset.sum_congr rfl fun q _ => ?_)
  refine congrArg₂ (· * ·) (trunc_at _ _ _ _ ?_) (trunc_at _ _ _ _ rfl)
  -- the joined gathered features at (e, q)
  refine (join_apply _ _ _ e q).trans ?_
  unfold Cert.Spec.pre
  by_cases hq : q.val < 256
  · rw [dif_pos hq, dif_pos hq]
    exact gather_apply x1 x2 _ e ⟨q.val, hq⟩
  · rw [dif_neg hq, dif_neg hq]
    exact gather_apply x0 x2 _ e ⟨q.val - 256, by omega⟩

end Cert.KernelIdeal.Hand.KEdge

end
-- ==== Proof.Acc.lean ====
/-
  The scratch accumulator of the edge phase at the ideal instance, read at an index.
  The body adds the tile's contribution into the accumulator (an identity shape cast of a pointwise sum),
  having put zero there at the first point of each half (an identity shape cast of a splat of the constant 0).
  Hence after point 16·h + i the accumulator is the sum of the contributions of the points 16·h, …, 16·h + i.
-/
import proofs.«157347_j10196252360963_1_alg».proof.Proof.Data0
import Idealize.ShloMosaic.Lib.ValueIdx
import Idealize.ShloMosaic.Lib.Pipeline.Value
import Idealize.ShloMosaic.PureOps.Ideal.Laws
import Mathlib.Algebra.BigOperators.Group.Finset.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The accumulating store's payload at an index: the old accumulator plus the tile's contribution
    (the shape cast is to the same shape, the sum is pointwise). -/
theorem k0_pay1_apply (p : FVec Ideal S2048x256 .f32) (a : Vec Ideal S2048x256 .f32) (j : S2048x256.Idx) :
    k0_pay1 (F := Ideal) p a j = a j + p j := by
  unfold k0_pay1
  rw [shapeCast_self]
  exact addf_apply (s := S2048x256) a p j

/-- The resetting store's payload at an index: zero (an identity shape cast of the splat of the constant 0). -/
theorem k0_pay3_apply (j : S2048x256.Idx) : k0_pay3 (F := Ideal) j = 0 := by
  unfold k0_pay3
  rw [shapeCast_self]
  exact Ideal.ofBits_zero_f32

/-- After point 16·h + i the accumulator is the sum of the contributions of the half's first i + 1 tiles:
    at i = 0 it is 0 plus the first contribution, and each later point adds its own to the one before. -/
theorem accAt0_eq_sum (c : Dev nD) (h i : ℕ) (hh : h < 2) (hi : i < 16) (j : S2048x256.Idx) :
    accAt0 V c (16 * h + i) (by have := Gen.N_0; show _ < grid0.N; omega) j
      = ∑ i' ∈ Finset.range (i + 1), if hlt : 16 * h + i' < grid0.N then tilePart V c ⟨16 * h + i', hlt⟩ j else 0 := by
  have hN : grid0.N = 32 := Gen.N_0
  induction i with
  | zero =>
    have hlt : 16 * h + 0 < grid0.N := by omega
    rw [Finset.sum_range_one, dif_pos hlt]
    have hr := accAt0_reset V c ⟨16 * h + 0, hlt⟩ (by show (16 * h + 0) % 16 = 0; omega)
    have hr' := congrFun hr j
    rw [k0_pay1_apply, k0_pay3_apply, zero_add] at hr'
    exact hr'
  | succ i ih =>
    have hlt : 16 * h + (i + 1) < grid0.N := by omega
    rw [Finset.sum_range_succ, ← ih (by omega), dif_pos hlt]
    have hs := accAt0_step V c ⟨16 * h + (i + 1), hlt⟩ (by show ¬ (16 * h + (i + 1)) % 16 = 0; omega)
    have hs' := congrFun hs j
    rw [k0_pay1_apply] at hs'
    exact hs'

end Cert.KernelIdeal.Hand

end
-- ==== Proof.Tail.lean ====
/-
  The node-update MLP at the level of whole arrays, at the ideal instance.
  The reference's result from its channel-axis join on, and the second kernel region's result block, are ONE function
  refTail of (node features, aggregate, three weight matrices and three biases): join the features with the aggregate
  along the channel axis, three dense layers (product with the transposed weights plus the bias row broadcast over the
  nodes, the first two clamped below at zero), and the node features added back.
-/
import proofs.«157347_j10196252360963_1_alg».proof.Proof.Data1
import proofs.«157347_j10196252360963_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Tail

open Idealize.ShloMosaic Idealize.ShloMosaic.ValueIdx

/-! ## The reference's tail as a function of the aggregate -/

section Ref
open Cert.ReferenceIdeal Cert.ReferenceIdeal.Facts₀

/-- The reference's term from its channel-axis join on, the aggregate a variable. -/
def refTail (x : Vec Ideal S2048x256 .f32) (agg : Vec Ideal S2048x256 .f32)
    (w1 : Vec Ideal S512x512 .f32) (b1 : Vec Ideal S512 .f32) (w2 : Vec Ideal S512x512 .f32) (b2 : Vec Ideal S512 .f32)
    (w3 : Vec Ideal S256x512 .f32) (b3 : Vec Ideal S256 .f32) : Vec Ideal S2048x256 .f32 :=
  addf x (addf (Host.dotGeneral (φ₁ := .f32) (φ₂ := .f32) dot_S2048x512_S512x256_S2048x256_1_0_0_1_n_n none
    (maximumf (addf (Host.dotGeneral (φ₁ := .f32) (φ₂ := .f32) dot_S2048x512_S512x512_S2048x512_1_0_0_1_n_n none
      (maximumf (addf (Host.dotGeneral (φ₁ := .f32) (φ₂ := .f32) dot_S2048x512_S512x512_S2048x512_1_0_0_1_n_n none
        (concatenate S2048x512 1 [⟨S2048x256, x⟩, ⟨S2048x256, agg⟩] concatenates_S2048x256_S2048x256_S2048x512_d1)
        (transpose S512x512 [1, 0] w1 transposes_S512x512_S512x512_1_0))
        (broadcastInDim S2048x512 ![0, 1] bcast_S1x512_S2048x512_0_1 (broadcastInDim S1x512 ![1] bcast_S512_S1x512_1 b1)))
        (broadcastInDim S2048x512 ![] bcast_S_S2048x512 (constant (F := Ideal) S_ .f32 0x00000000#32)))
      (transpose S512x512 [1, 0] w2 transposes_S512x512_S512x512_1_0))
      (broadcastInDim S2048x512 ![0, 1] bcast_S1x512_S2048x512_0_1 (broadcastInDim S1x512 ![1] bcast_S512_S1x512_1 b2)))
      (broadcastInDim S2048x512 ![] bcast_S_S2048x512 (constant (F := Ideal) S_ .f32 0x00000000#32)))
    (transpose S512x256 [1, 0] w3 transposes_S256x512_S512x256_1_0))
    (broadcastInDim S2048x256 ![0, 1] bcast_S1x256_S2048x256_0_1 (broadcastInDim S1x256 ![1] bcast_S256_S1x256_1 b3)))

/-- The reference's result is refTail at its own aggregate stage. -/
theorem ref_tail (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S256x512, .f32⟩ : BufTy).Contents (Elt Ideal)) (x12 : (⟨S256, .f32⟩ : BufTy).Contents (Elt Ideal)) :
    Cert.ReferenceIdeal.Read.val_main_v35 (F := Ideal) x0 x1 x2 x3 x4 x5 x6 x7 x8 x9 x10 x11 x12
      = refTail x0 (Cert.ReferenceIdeal.Read.val_main_v16 (F := Ideal) x0 x1 x2 x3 x4 x5 x6) x7 x8 x9 x10 x11 x12 := by
  generalize hagg : Cert.ReferenceIdeal.Read.val_main_v16 (F := Ideal) x0 x1 x2 x3 x4 x5 x6 = agg
  unfold Read.val_main_v35 Read.val_main_v34 Read.val_main_v33 Read.val_main_v32 Read.val_main_v31 Read.val_main_v30
    Read.val_main_v29 Read.val_main_call3_v0 Read.val_main_call3_cst Read.val_main_v28 Read.val_main_v27 Read.val_main_v26
    Read.val_main_v25 Read.val_main_v24 Read.val_main_v23 Read.val_main_call2_v0 Read.val_main_call2_cst Read.val_main_v22
    Read.val_main_v21 Read.val_main_v20 Read.val_main_v19 Read.val_main_v18 Read.val_main_v17 refTail
  rw [hagg]

end Ref

/-! ## Bridges between the two programs' spellings of one operation -/

section Bridges
variable {α : Type}

/-- A product of operands narrowed to bf16, the right one transposed, accumulated into the zero splat, is the host's
    product of the operands themselves: at the ideal values a narrowing is the identity and both are the sum over the
    contraction index of the operands' products. -/
theorem dense_eq {sl sr sr' so : Shape} (D : DotDims sl sr so) (perm : List (Fin sr'.rank)) (l : FVec Ideal sl .f32)
    (w : FVec Ideal sr' .f32) (hb : FTy.bits .bf16 < FTy.bits .f32) (ht : sr'.Transposes perm sr) :
    matmul D none (truncf .bf16 l hb) (transpose sr perm (truncf .bf16 w hb) ht) (constant so .f32 0x00000000#32)
      = Host.dotGeneral (φ₁ := .f32) (φ₂ := .f32) D none l (transpose sr perm w ht) := by
  funext j
  simp only [matmul, Host.dotGeneral]
  rw [Ideal.matmul_constant_zero_apply, Ideal.dotGeneral_apply]
  rfl

/-- A bias row cast to one row and broadcast over the rows is the row broadcast in two steps along the last axis: both
    read the bias at the index's last coordinate. -/
theorem bias_eq {a n : ℕ} (b : (⟨1, ![n]⟩ : Shape).Idx → α)
    (hc : (⟨1, ![n]⟩ : Shape).ShapeCasts ⟨2, ![1, n]⟩) (hb : (⟨2, ![1, n]⟩ : Shape).Broadcasts ⟨2, ![a, n]⟩)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) :
    broadcastTo ⟨2, ![a, n]⟩ (shapeCast ⟨2, ![1, n]⟩ b hc) hb
      = broadcastInDim ⟨2, ![a, n]⟩ ![0, 1] h2 (broadcastInDim ⟨2, ![1, n]⟩ ![1] h1 b) := by
  funext j
  obtain ⟨p, c, rfl⟩ : ∃ p c, j = ix2 p c := ⟨j 0, j 1, eq_ix2 j⟩
  rw [broadcastTo_1b_ab_apply, shapeCast_a_1a_apply]
  symm
  refine (broadcastInDim_apply _ h2 _ (ix2 p c) (ix2 (0 : Fin 1) c) (fun ax => ?_)).trans ?_
  · match ax with
    | ⟨0, _⟩ => rfl
    | ⟨1, _⟩ =>
      show c.val = if n = 1 then 0 else c.val
      split
      · have := c.isLt; omega
      · rfl
  · refine broadcastInDim_apply _ h1 b (ix2 (0 : Fin 1) c) (ix1 c) (fun ax => ?_)
    match ax with
    | ⟨0, _⟩ =>
      show c.val = if n = 1 then 0 else c.val
      split
      · have := c.isLt; omega
      · rfl

/-- The zero scalar broadcast is the rank-0 zero constant broadcast along no axis. -/
theorem zero_eq {s : Shape} (h : (⟨0, ![]⟩ : Shape).BroadcastsInDim s (![] : Fin 0 → Fin s.rank)) :
    broadcast s (FloatOps.ofBits (F := Ideal) .f32 0x00000000#32)
      = broadcastInDim s ![] h (constant (F := Ideal) ⟨0, ![]⟩ .f32 0x00000000#32) := rfl

end Bridges

/-! ## The kernel's result block -/

/-- The two halves of the partial aggregate added. -/
def aggK (y0 : Vec Ideal Cert.KernelIdeal.S2x2048x256 .f32) : Vec Ideal Cert.KernelIdeal.S2048x256 .f32 :=
  fun j => y0 (ix3 (0 : Fin 2) ⟨(j 0).val, (j 0).isLt⟩ ⟨(j 1).val, (j 1).isLt⟩)
    + y0 (ix3 (1 : Fin 2) ⟨(j 0).val, (j 0).isLt⟩ ⟨(j 1).val, (j 1).isLt⟩)

section Ker
open Cert.KernelIdeal Cert.KernelIdeal.Facts₀ Cert.KernelIdeal.Gen Cert.KernelIdeal.Hand

/-- The two loaded halves, each cast from 1 × 2048 × 256 to 2048 × 256, added: the sum of the block's two leading
    slices (a half's rectangle has offset 0 or 1 on the leading axis and reads whole rows and columns). -/
theorem agg_eq (y0 : Vec Ideal S2x2048x256 .f32) (hc : S1x2048x256.ShapeCasts S2048x256) :
    addf (F := Ideal) (φ := .f32) (shapeCast S2048x256 (View.ld y0 half0) hc) (shapeCast S2048x256 (View.ld y0 half1) hc) = aggK y0 := by
  funext j
  obtain ⟨p, c, rfl⟩ : ∃ p c, j = ix2 p c := ⟨j 0, j 1, eq_ix2 j⟩
  have e0 : shapeCast S2048x256 (View.ld y0 half0) hc (ix2 p c) = View.ld y0 half0 (ix3 (0 : Fin 1) p c) :=
    shapeCast_1ab_ab_apply (a := 2048) (b := 256) (View.ld y0 half0) hc p c
  have e1 : shapeCast S2048x256 (View.ld y0 half1) hc (ix2 p c) = View.ld y0 half1 (ix3 (0 : Fin 1) p c) :=
    shapeCast_1ab_ab_apply (a := 2048) (b := 256) (View.ld y0 half1) hc p c
  rw [addf_apply, e0, e1]
  have i0 : half0.idx (ix3 (0 : Fin 1) p c) = ix3 (0 : Fin 2) ⟨p.val, p.isLt⟩ ⟨c.val, c.isLt⟩ := by
    funext ax
    match ax with
    | ⟨0, _⟩ => exact Fin.ext rfl
    | ⟨1, _⟩ => exact Fin.ext (by show 0 + 1 * p.val = p.val; omega)
    | ⟨2, _⟩ => exact Fin.ext (by show 0 + 1 * c.val = c.val; omega)
  have i1 : half1.idx (ix3 (0 : Fin 1) p c) = ix3 (1 : Fin 2) ⟨p.val, p.isLt⟩ ⟨c.val, c.isLt⟩ := by
    funext ax
    match ax with
    | ⟨0, _⟩ => exact Fin.ext rfl
    | ⟨1, _⟩ => exact Fin.ext (by show 0 + 1 * p.val = p.val; omega)
    | ⟨2, _⟩ => exact Fin.ext (by show 0 + 1 * c.val = c.val; omega)
  show y0 (half0.idx (ix3 (0 : Fin 1) p c)) + y0 (half1.idx (ix3 (0 : Fin 1) p c)) = _
  rw [i0, i1]
  rfl

/-- The two programs' dimension numbers of each product are the same record. -/
theorem dotA_eq : dot_S2048x512_S512x512_S2048x512_1_0_0_1_n_n = Cert.ReferenceIdeal.dot_S2048x512_S512x512_S2048x512_1_0_0_1_n_n := rfl
theorem dotB_eq : dot_S2048x512_S512x256_S2048x256_1_0_0_1_n_n = Cert.ReferenceIdeal.dot_S2048x512_S512x256_S2048x256_1_0_0_1_n_n := rfl

/-- The kernel's result block is refTail of the node features, the two halves' sum, and the weights and biases. -/
theorem ker_tail (y0 : Vec Ideal S2x2048x256 .f32) (y1 : Vec Ideal S2048x256 .f32) (y2 : Vec Ideal S512x512 .f32) (y3 : Vec Ideal S512 .f32)
    (y4 : Vec Ideal S512x512 .f32) (y5 : Vec Ideal S512 .f32) (y6 : Vec Ideal S256x512 .f32) (y7 : Vec Ideal S256 .f32) :
    Cert.KernelIdeal.Hand.out1 (F := Ideal) y0 y1 y2 y3 y4 y5 y6 y7 = refTail y1 (aggK y0) y2 y3 y4 y5 y6 y7 := by
  unfold out1 k1_pay1 k1_pay2 k1_pay3
  dsimp only
  rw [agg_eq, dense_eq, dense_eq, dense_eq, dotA_eq, dotB_eq,
    bias_eq (a := 2048) (n := 512) y3 _ _ Cert.ReferenceIdeal.Facts₀.bcast_S512_S1x512_1 Cert.ReferenceIdeal.Facts₀.bcast_S1x512_S2048x512_0_1,
    bias_eq (a := 2048) (n := 512) y5 _ _ Cert.ReferenceIdeal.Facts₀.bcast_S512_S1x512_1 Cert.ReferenceIdeal.Facts₀.bcast_S1x512_S2048x512_0_1,
    bias_eq (a := 2048) (n := 256) y7 _ _ Cert.ReferenceIdeal.Facts₀.bcast_S256_S1x256_1 Cert.ReferenceIdeal.Facts₀.bcast_S1x256_S2048x256_0_1,
    zero_eq Cert.ReferenceIdeal.Facts₀.bcast_S_S2048x512]
  rfl

end Ker

end Cert.Tail

end
-- ==== Proof.RefEdge.lean ====
/-
  The reference's aggregate, read at an index at the ideal values. Its edge phase is, layer by layer, the
  specification's: the two incidence products gather the node features along an incidence row; the
  concatenation joins the sender's and the receiver's gathered features; each MLP layer is a product with a
  transposed weight, a broadcast bias, and a maximum with the zero splat; the last product, with the transposed
  receiver incidence, sums the messages over all 32768 edges.
-/
import proofs.«157347_j10196252360963_1_alg».proof.Proof.Gen.ReferenceIdeal.Read
import proofs.«157347_j10196252360963_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefEdge

open Idealize.ShloMosaic Idealize.ShloMosaic.ValueIdx Cert.ReferenceIdeal Cert.ReferenceIdeal.Gen Cert.ReferenceIdeal.Read

variable (x0 : (⟨S2048x256, .f32⟩ : BufTy).Contents (Elt Ideal))
  (x1 x2 : (⟨S32768x2048, .f32⟩ : BufTy).Contents (Elt Ideal))
  (x3 : (⟨S512x512, .f32⟩ : BufTy).Contents (Elt Ideal)) (x4 : (⟨S512, .f32⟩ : BufTy).Contents (Elt Ideal))
  (x5 : (⟨S256x512, .f32⟩ : BufTy).Contents (Elt Ideal)) (x6 : (⟨S256, .f32⟩ : BufTy).Contents (Elt Ideal))

/-- The receivers' product at edge `e`, channel `k`: the features gathered along row `e` of the receiver incidence. -/
theorem v0_at (e : Fin 32768) (k : Fin 256) :
    val_main_v0 (F := Ideal) x0 x1 (ix2 e k) = Cert.Spec.gath x0 (Cert.Spec.rowOf x1 e) k := by
  rw [val_main_v0_apply]
  unfold Cert.Spec.gath
  refine Finset.sum_congr rfl fun n _ => ?_
  have e1 : lidx_main_v0 (ix2 e k) n = ix2 e n :=
    funext fun a => Fin.ext (by match a with | ⟨0, _⟩ => rfl | ⟨1, _⟩ => rfl)
  have e2 : ridx_main_v0 (ix2 e k) n = ix2 n k :=
    funext fun a => Fin.ext (by match a with | ⟨0, _⟩ => rfl | ⟨1, _⟩ => rfl)
  rw [e1, e2]

/-- The senders' product at edge `e`, channel `k`: the features gathered along row `e` of the sender incidence. -/
theorem v1_at (e : Fin 32768) (k : Fin 256) :
    val_main_v1 (F := Ideal) x0 x2 (ix2 e k) = Cert.Spec.gath x0 (Cert.Spec.rowOf x2 e) k := by
  rw [val_main_v1_apply]
  unfold Cert.Spec.gath
  refine Finset.sum_congr rfl fun n _ => ?_
  have e1 : lidx_main_v1 (ix2 e k) n = ix2 e n :=
    funext fun a => Fin.ext (by match a with | ⟨0, _⟩ => rfl | ⟨1, _⟩ => rfl)
  have e2 : ridx_main_v1 (ix2 e k) n = ix2 n k :=
    funext fun a => Fin.ext (by match a with | ⟨0, _⟩ => rfl | ⟨1, _⟩ => rfl)
  rw [e1, e2]

/-- The joined features at edge `e`, channel `q`: the sender's below 256, the receiver's from 256 on. -/
theorem v2_at (e : Fin 32768) (q : Fin 512) :
    val_main_v2 (F := Ideal) x0 x1 x2 (ix2 e q)
      = Cert.Spec.pre x0 (Cert.Spec.rowOf x1 e) (Cert.Spec.rowOf x2 e) q := by
  unfold val_main_v2 Cert.Spec.pre
  by_cases h : q.val < 256
  · rw [dif_pos h, ← v1_at]
    refine concatenate_pair_apply_left (t := S32768x512) (s₁ := S32768x256) (s₂ := S32768x256)
      (1 : Fin S32768x512.rank) _ _ _ (ix2 e q) rfl (ix2 e (⟨q.val, h⟩ : Fin 256)) ?_
    intro b
    match b with
    | ⟨0, _⟩ => rfl
    | ⟨1, _⟩ => rfl
  · rw [dif_neg h, ← v0_at]
    refine concatenate_pair_apply_right (t := S32768x512) (s₁ := S32768x256) (s₂ := S32768x256)
      (1 : Fin S32768x512.rank) _ _ _ (ix2 e q) rfl rfl
      (ix2 e (⟨q.val - 256, by have := q.isLt; omega⟩ : Fin 256)) ?_ ?_
    · intro b hb
      match b, hb with
      | ⟨0, _⟩, _ => rfl
      | ⟨1, _⟩, hb => exact absurd rfl hb
    · show q.val - 256 + 256 = q.val
      omega

/-- The first layer at edge `e`, channel `p`. -/
theorem v8_at (e : Fin 32768) (p : Fin 512) :
    val_main_v8 (F := Ideal) x0 x1 x2 x3 x4 (ix2 e p)
      = Cert.Spec.hid x0 x3 x4 (Cert.Spec.rowOf x1 e) (Cert.Spec.rowOf x2 e) p := by
  rw [val_main_v8_apply, val_main_v7_apply, val_main_v4_apply, val_main_v6_apply, val_main_v5_apply,
    val_main_call0_v0_apply, val_main_call0_cst_apply]
  unfold Cert.Spec.hid
  rw [Ideal.maximumf_def, Ideal.addf_def, Ideal.ofBits_def, Ideal.ofBits_zero_f32]
  have eb : idx_main_v5 (idx_main_v6 (ix2 e p)) = ix1 p :=
    funext fun a => Fin.ext (by match a with | ⟨0, _⟩ => rfl)
  rw [eb]
  congr 2
  refine Finset.sum_congr rfl fun q _ => ?_
  have e1 : lidx_main_v4 (ix2 e p) q = ix2 e q :=
    funext fun a => Fin.ext (by match a with | ⟨0, _⟩ => rfl | ⟨1, _⟩ => rfl)
  have e2 : idx_main_v3 (ridx_main_v4 (ix2 e p) q) = ix2 p q :=
    funext fun a => Fin.ext (by match a with | ⟨0, _⟩ => rfl | ⟨1, _⟩ => rfl)
  rw [val_main_v3_apply, e1, e2, v2_at]

/-- The second layer (the message) at edge `e`, channel `r`. -/
theorem v14_at (e : Fin 32768) (r : Fin 256) :
    val_main_v14 (F := Ideal) x0 x1 x2 x3 x4 x5 x6 (ix2 e r)
      = Cert.Spec.msg x0 x3 x4 x5 x6 (Cert.Spec.rowOf x1 e) (Cert.Spec.rowOf x2 e) r := by
  rw [val_main_v14_apply, val_main_v13_apply, val_main_v10_apply, val_main_v12_apply, val_main_v11_apply,
    val_main_call1_v0_apply, val_main_call1_cst_apply]
  unfold Cert.Spec.msg
  rw [Ideal.maximumf_def, Ideal.addf_def, Ideal.ofBits_def, Ideal.ofBits_zero_f32]
  have eb : idx_main_v11 (idx_main_v12 (ix2 e r)) = ix1 r :=
    funext fun a => Fin.ext (by match a with | ⟨0, _⟩ => rfl)
  rw [eb]
  congr 2
  refine Finset.sum_congr rfl fun p _ => ?_
  have e1 : lidx_main_v10 (ix2 e r) p = ix2 e p :=
    funext fun a => Fin.ext (by match a with | ⟨0, _⟩ => rfl | ⟨1, _⟩ => rfl)
  have e2 : idx_main_v9 (ridx_main_v10 (ix2 e r) p) = ix2 r p :=
    funext fun a => Fin.ext (by match a with | ⟨0, _⟩ => rfl | ⟨1, _⟩ => rfl)
  rw [val_main_v9_apply, e1, e2, v8_at]

/-- The reference's aggregate at node `n`, channel `r`: the specification's sum over all 32768 edges. -/
theorem ref_agg_apply (x0 : (⟨S2048x256, .f32⟩ : BufTy).Contents (Elt Ideal)) (x1 x2 : (⟨S32768x2048, .f32⟩ : BufTy).Contents (Elt Ideal)) (x3 : (⟨S512x512, .f32⟩ : BufTy).Contents (Elt Ideal)) (x4 : (⟨S512, .f32⟩ : BufTy).Contents (Elt Ideal)) (x5 : (⟨S256x512, .f32⟩ : BufTy).Contents (Elt Ideal)) (x6 : (⟨S256, .f32⟩ : BufTy).Contents (Elt Ideal)) (n : Fin 2048) (r : Fin 256) :
    val_main_v16 (F := Ideal) x0 x1 x2 x3 x4 x5 x6 (ix2 n r) = Cert.Spec.aggOver x0 x3 x4 x5 x6 x1 x2 n r := by
  rw [val_main_v16_apply]
  unfold Cert.Spec.aggOver
  refine Finset.sum_congr rfl fun e _ => ?_
  have e1 : idx_main_v15 (lidx_main_v16 (ix2 n r) e) = ix2 e n :=
    funext fun a => Fin.ext (by match a with | ⟨0, _⟩ => rfl | ⟨1, _⟩ => rfl)
  have e2 : ridx_main_v16 (ix2 n r) e = ix2 e r :=
    funext fun a => Fin.ext (by match a with | ⟨0, _⟩ => rfl | ⟨1, _⟩ => rfl)
  rw [val_main_v15_apply, e1, e2, v14_at]

end Cert.ReferenceIdeal.RefEdge

end
-- ==== Proof.SpecSum.lean ====
/-
  The aggregate over all 32768 edges, regrouped by tiles of 1024 consecutive edges. The extended
  reals are a commutative additive monoid, so a finite sum may be reindexed and regrouped freely:
  every edge is uniquely 1024 · t + e' with t one of 32 tiles and e' one of its 1024 rows, and the
  sum over 32 tiles splits as the first 16 and the last 16.
-/
import proofs.«157347_j10196252360963_1_alg».proof.Proof.Spec
import Mathlib.Algebra.BigOperators.Fin
import Mathlib.Logic.Equiv.Fin.Basic
import Mathlib.Data.EReal.Basic

noncomputable section

namespace Cert.Spec

open Idealize.ShloMosaic Idealize.ShloMosaic.ValueIdx

/-- A sum over 32768 consecutive positions is the double sum over 32 blocks of 1024: position
1024 · t + e' is row e' of block t. -/
theorem sum_blocks (f : Fin 32768 → EReal) :
    ∑ e : Fin 32768, f e
      = ∑ t : Fin 32, ∑ e' : Fin 1024,
          f ⟨1024 * t.val + e'.val, by have := t.isLt; have := e'.isLt; omega⟩ := by
  rw [← Fintype.sum_prod_type']
  rw [← Equiv.sum_comp (finProdFinEquiv (m := 32) (n := 1024)) (fun e : Fin (32 * 1024) => f e)]
  refine Finset.sum_congr rfl ?_
  rintro ⟨t, e'⟩ _
  refine congrArg f (Fin.ext ?_)
  show e'.val + 1024 * t.val = 1024 * t.val + e'.val
  omega

variable (x : Mat 2048 256) (w1 : Mat 512 512) (b1 : Vct 512) (w2 : Mat 256 512) (b2 : Vct 256)

/-- Row e' of tile t is row 1024 · t + e' of the whole matrix. -/
theorem rowOf_tileOf (A : Mat 32768 2048) (t : Fin 32) (e' : Fin 1024) :
    rowOf (tileOf A t) e'
      = rowOf A ⟨1024 * t.val + e'.val, by have := t.isLt; have := e'.isLt; omega⟩ := rfl

/-- The aggregate over all edges is the sum of the 32 tiles' aggregates. -/
theorem aggOver_eq_sum_tiles (A B : Mat 32768 2048) (n : Fin 2048) (r : Fin 256) :
    aggOver x w1 b1 w2 b2 A B n r
      = ∑ t : Fin 32, aggOver x w1 b1 w2 b2 (tileOf A t) (tileOf B t) n r := by
  unfold aggOver
  rw [sum_blocks]
  refine Finset.sum_congr rfl (fun t _ => Finset.sum_congr rfl (fun e' _ => ?_))
  rw [rowOf_tileOf, rowOf_tileOf]
  rfl

/-- A sum over 32 terms is the sum of its first 16 and of its last 16. -/
theorem sum32_halves (g : Fin 32 → EReal) :
    ∑ t : Fin 32, g t
      = (∑ i ∈ Finset.range 16, if h : i < 32 then g ⟨i, h⟩ else 0)
        + (∑ i ∈ Finset.range 16, if h : 16 + i < 32 then g ⟨16 + i, h⟩ else 0) := by
  have h1 : ∑ t : Fin 32, g t
      = ∑ t : Fin 32, (fun i : ℕ => if h : i < 32 then g ⟨i, h⟩ else 0) t.val :=
    Finset.sum_congr rfl (fun t _ => by simp [t.isLt])
  rw [h1, Fin.sum_univ_eq_sum_range (fun i : ℕ => if h : i < 32 then g ⟨i, h⟩ else 0) 32]
  exact Finset.sum_range_add (fun i : ℕ => if h : i < 32 then g ⟨i, h⟩ else 0) 16 16

end Cert.Spec

end
-- ==== Proof.Bridge.lean ====
/-
  The two idealized programs compute one function of the arguments.
  Kernel side: the result array is the node-update phase's block of the partial aggregate and the arguments
  (the region writes it back at its one point); the partial aggregate's two halves hold the accumulator
  after the last point of each half; that accumulator is the sum of the half's sixteen tile contributions,
  each the specification's aggregate over the tile's 1024 edges. Reference side: the aggregate is the
  specification's over all 32768 edges. The two agree because a finite sum over the edges is the sum over the
  32 tiles of the sums over each tile (addition on the extended reals is associative and commutative: no
  finiteness is used), and from the aggregate on both programs apply the same node-update function.
-/
import proofs.«157347_j10196252360963_1_alg».proof.Proof.Run
import proofs.«157347_j10196252360963_1_alg».proof.Proof.KStruct
import proofs.«157347_j10196252360963_1_alg».proof.Proof.KEdge
import proofs.«157347_j10196252360963_1_alg».proof.Proof.Acc
import proofs.«157347_j10196252360963_1_alg».proof.Proof.Tail
import proofs.«157347_j10196252360963_1_alg».proof.Proof.RefEdge
import proofs.«157347_j10196252360963_1_alg».proof.Proof.SpecSum

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg)

/-- The reference's aggregate of the launch contents. -/
def refAgg (c : Dev nD) : Vec Ideal S2048x256 .f32 :=
  Cert.ReferenceIdeal.Read.val_main_v16 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The result both programs end with, as a function of the launch contents: the node update of the node
    features and the reference's aggregate. -/
def resultOf (c : Dev nD) : Vec Ideal S2048x256 .f32 :=
  Cert.Tail.refTail (m ((c.tc : Thread nD τ).loc main_arg0)) (refAgg m c) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-- The edge tile a grid point reads of an incidence matrix is the specification's tile. -/
theorem blk_eq_tile (c : Dev nD) (t : Fin cfg0.N) (ht : t.val < 32) :
    (iblk0 (Vin m) c 0 t : Cert.Spec.Mat 1024 2048) = Cert.Spec.tileOf (m ((c.tc : Thread nD τ).loc main_arg1)) ⟨t.val, ht⟩
    ∧ (iblk0 (Vin m) c 1 t : Cert.Spec.Mat 1024 2048) = Cert.Spec.tileOf (m ((c.tc : Thread nD τ).loc main_arg2)) ⟨t.val, ht⟩ := by
  constructor
  · funext j
    rw [eq_ix2 j]
    exact iblk0_0_apply (Vin m) c t (j 0) (j 1)
  · funext j
    rw [eq_ix2 j]
    exact iblk0_1_apply (Vin m) c t (j 0) (j 1)

/-- A grid point's contribution is the specification's aggregate over its tile. -/
theorem tilePart_eq (c : Dev nD) (t : Fin cfg0.N) (ht : t.val < 32) (n : Fin 2048) (r : Fin 256) :
    tilePart (Vin m) c t (ix2 n r)
      = Cert.Spec.aggOver (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6))
          (Cert.Spec.tileOf (m ((c.tc : Thread nD τ).loc main_arg1)) ⟨t.val, ht⟩) (Cert.Spec.tileOf (m ((c.tc : Thread nD τ).loc main_arg2)) ⟨t.val, ht⟩) n r := by
  unfold tilePart
  refine (KEdge.tile_apply (iblk0 (Vin m) c 0 t) (iblk0 (Vin m) c 1 t) (iblk0 (Vin m) c 2 t) (iblk0 (Vin m) c 3 t) (iblk0 (Vin m) c 4 t)
    (iblk0 (Vin m) c 5 t) (iblk0 (Vin m) c 6 t) n r).trans ?_
  rw [iblk0_2 (Vin m) c t, iblk0_3 (Vin m) c t, iblk0_4 (Vin m) c t, iblk0_5 (Vin m) c t, iblk0_6 (Vin m) c t,
    (blk_eq_tile m c t ht).1, (blk_eq_tile m c t ht).2]

/-- The sum of a block's two halves, read at a node and a channel. -/
theorem aggK_ix2 (y0 : Vec Ideal S2x2048x256 .f32) (n : Fin 2048) (r : Fin 256) :
    Cert.Tail.aggK y0 (ix2 n r) = y0 (ix3 (0 : Fin 2) n r) + y0 (ix3 (1 : Fin 2) n r) := rfl

/-- The partial aggregate's two halves add up to the reference's aggregate: each half's accumulator is the sum of
    its sixteen tiles' aggregates, and the 32 tiles' aggregates add up to the aggregate over all edges. -/
theorem agg_apply (c : Dev nD) (n : Fin 2048) (r : Fin 256) :
    Cert.Tail.aggK ((dat0 (Vin m) c).arrAt 7 cfg0.N) (ix2 n r) = refAgg m c (ix2 n r) := by
  refine (aggK_ix2 _ n r).trans ?_
  rw [arr0_final (Vin m) c 0 n r, arr0_final (Vin m) c 1 n r]
  have h0 := accAt0_eq_sum (Vin m) c 0 15 (by omega) (by omega) (ix2 n r)
  have h1 := accAt0_eq_sum (Vin m) c 1 15 (by omega) (by omega) (ix2 n r)
  refine (congrArg₂ (fun a b : EReal => a + b) h0 h1).trans ?_
  unfold refAgg
  rw [Cert.ReferenceIdeal.RefEdge.ref_agg_apply, Cert.Spec.aggOver_eq_sum_tiles, Cert.Spec.sum32_halves]
  have hN : grid0.N = 32 := Gen.N_0
  refine congrArg₂ (fun a b : EReal => a + b) (Finset.sum_congr rfl fun i hi => ?_) (Finset.sum_congr rfl fun i hi => ?_)
  · have hi' : i < 16 := Finset.mem_range.mp hi
    have hlt : 16 * 0 + i < grid0.N := by omega
    rw [dif_pos hlt, dif_pos (show i < 32 by omega)]
    refine (tilePart_eq m c ⟨16 * 0 + i, hlt⟩ (by show 16 * 0 + i < 32; omega) n r).trans ?_
    have e : (⟨(⟨16 * 0 + i, hlt⟩ : Fin cfg0.N).val, (by show 16 * 0 + i < 32; omega)⟩ : Fin 32) = ⟨i, by omega⟩ := Fin.ext (by show 16 * 0 + i = i; omega)
    rw [e]
  · have hi' : i < 16 := Finset.mem_range.mp hi
    have hlt : 16 * 1 + i < grid0.N := by omega
    rw [dif_pos hlt, dif_pos (show 16 + i < 32 by omega)]
    refine (tilePart_eq m c ⟨16 * 1 + i, hlt⟩ (by show 16 * 1 + i < 32; omega) n r).trans ?_
    have e : (⟨(⟨16 * 1 + i, hlt⟩ : Fin cfg0.N).val, (by show 16 * 1 + i < 32; omega)⟩ : Fin 32) = ⟨16 + i, by omega⟩ := Fin.ext (by show 16 * 1 + i = 16 + i; omega)
    rw [e]

theorem agg_eq (c : Dev nD) : Cert.Tail.aggK ((dat0 (Vin m) c).arrAt 7 cfg0.N) = refAgg m c :=
  funext fun j => by rw [eq_ix2 j]; exact agg_apply m c (j 0) (j 1)

/-- The kernel program's result array is the common result. -/
theorem final_eq (c : Dev nD) : (dat1 (Vmid m) c).arrAt 8 cfg1.N = resultOf m c := by
  rw [arr1_final (Vmid m) c, Vmid_main_v0, Vmid_main_arg0, Vmid_main_arg7, Vmid_main_arg8, Vmid_main_arg9, Vmid_main_arg10,
    Vmid_main_arg11, Vmid_main_arg12, Cert.Tail.ker_tail, agg_eq]
  rfl

/-- The idealized kernel runs to the common result, its arguments unchanged. -/
theorem kernel_value : θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (final_eq m c), (h c).2⟩) (run_named m ρ)

/-- The reference's result, as its stages compose it, is the common result. -/
theorem reference_value (c : Dev nD) :
    Cert.ReferenceIdeal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = resultOf m c :=
  Cert.Tail.ref_tail _ _ _ _ _ _ _ _ _ _ _ _ _

end Cert.Bridge

end
-- ==== Proof.lean ====
/-
  The certificate's five claims.
  The kernel is a message-passing step over a graph given by dense one-hot incidence matrices: an edge phase
  (gather the endpoints' features, a two-layer message MLP, scatter-add to the receivers) tiled over 2 × 16 blocks
  of 1024 edges with a scratch accumulator per half, then a node-update phase (add the two halves, join with the
  node features, a three-layer MLP, a residual). The reference does the same with whole-array products.
  Frames: each kernel program runs as its two regions in order, the argument arrays untouched; the reference's
  run is its generated one. No operation was rewritten by the idealization, so `preserves` is trivial. Over the
  extended reals the two idealized programs end with equal results: both are the node update of the node
  features and the aggregate, and the kernel's tiled, accumulated aggregate is the reference's single sum over
  the edges regrouped (associativity and commutativity of addition only; the precondition is not used).
-/
import proofs.«157347_j10196252360963_1_alg».proof.Defs
import proofs.«157347_j10196252360963_1_alg».proof.Proof.Gen.Kernel
import proofs.«157347_j10196252360963_1_alg».proof.Proof.Gen.KernelIdeal
import proofs.«157347_j10196252360963_1_alg».proof.Proof.Gen.ReferenceIdeal
import proofs.«157347_j10196252360963_1_alg».proof.Proof.Gen.Pre_finite_inputs
import proofs.«157347_j10196252360963_1_alg».proof.Proof.Gen.ReferenceIdeal.Run
import proofs.«157347_j10196252360963_1_alg».proof.Proof.Bits.Run
import proofs.«157347_j10196252360963_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_named (F := Bits) m ρ)

theorem frame_ki : Cert.frame_KernelIdeal := fun m ρ _ =>
  (θ_run Cert.KernelIdeal.defs _ _).mono (fun _ h c => (h c).2) (Cert.KernelIdeal.Hand.run_named (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.Bridge.resultOf m c, Cert.Bridge.kernel_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [h0, h1, h2, h3, h4, h5, h6, h7, h8, h9, h10, h11, h12]
  exact Cert.Bridge.reference_value m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
